-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S384x32 : Shape := ⟨2, ![384, 32]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel
  bcast_S_S384x32 : S_.BroadcastsInDim S384x32 (![] : Fin 0 → Fin S384x32.rank)
  reducesTo_S384x32_S_d0_1 : S384x32.ReducesTo [0, 1] S_

variable [Facts]

def fn {F : FTy → Type} [FloatOps F] (main_arg0 : FVec F S384x128 .f32) (main_arg1 : FVec F S384x32 .f32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  let main_v4 : FVec F S384x32 .f32 := Host.absf main_arg1
  let main_cst_0 : FVec F S_ .f32 := constant S_ .f32 0x7F800000#32
  let main_v5 : FVec F S384x32 .f32 := broadcastInDim S384x32 ![] bcast_S_S384x32 main_cst_0
  let main_v6 : IVec S384x32 1 := cmpf .olt main_v4 main_v5
  let main_c_1 : IVec S_ 1 := constantI S_ 1 1#1
  let main_v7 : IVec S_ 1 := (fun x v => Host.reduce IntOp.andi x v reducesTo_S384x32_S_d0_1 h_S_) main_v6 main_c_1
  let main_v8 : IVec S_ 1 := andi main_v3 main_v7
  main_v8
-- ==== Kernel.lean ====
abbrev S384x128 : Shape := ⟨2, ![384, 128]⟩
abbrev S384x32 : Shape := ⟨2, ![384, 32]⟩
abbrev S1x1 : Shape := ⟨2, ![1, 1]⟩
abbrev S8x128 : Shape := ⟨2, ![8, 128]⟩
abbrev S8x32 : Shape := ⟨2, ![8, 32]⟩
abbrev S8x384x384 : Shape := ⟨3, ![8, 384, 384]⟩
abbrev S8 : Shape := ⟨1, ![8]⟩
abbrev S8x1 : Shape := ⟨2, ![8, 1]⟩
abbrev S384 : Shape := ⟨1, ![384]⟩
abbrev S384x1 : Shape := ⟨2, ![384, 1]⟩
abbrev S1x384 : Shape := ⟨2, ![1, 384]⟩
abbrev S128x384 : Shape := ⟨2, ![128, 384]⟩
abbrev S8x384 : Shape := ⟨2, ![8, 384]⟩
abbrev S8x1x384 : Shape := ⟨3, ![8, 1, 384]⟩
abbrev S8x384x1 : Shape := ⟨3, ![8, 384, 1]⟩
abbrev S32x384 : Shape := ⟨2, ![32, 384]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S384x128, .f32⟩
  | .hbm, ⟨1, _⟩ => ⟨S384x32, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S8x128, .f32⟩
  | .local _ .vmem, ⟨1, _⟩ => ⟨S8x128, .f32⟩
  | .local _ .vmem, ⟨2, _⟩ => ⟨S384x128, .f32⟩
  | .local _ .vmem, ⟨3, _⟩ => ⟨S8x32, .f32⟩
  | .local _ .vmem, ⟨4, _⟩ => ⟨S8x32, .f32⟩
  | .local _ .vmem, ⟨5, _⟩ => ⟨S384x32, .f32⟩
  | .local _ .vmem, ⟨6, _⟩ => ⟨S1x1, .f32⟩
  | .local _ .vmem, ⟨7, _⟩ => ⟨S8x384x384, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S8x128_S8x128_0_0 : ∀ a, (![0, 0] : Fin 2 → Nat) a + S8x128.size a ≤ S8x128.size a
  h_S8x128 : 0 < S8x128.numel
  inb_S384x128_S384x128_0_0 : ∀ a, (![0, 0] : Fin 2 → Nat) a + S384x128.size a ≤ S384x128.size a
  h_S384x128 : 0 < S384x128.numel
  reduces_S8x128_S8 : S8x128.Reduces [1] S8
  shapeCasts_S8_S8x1 : S8.ShapeCasts S8x1
  reduces_S384x128_S384 : S384x128.Reduces [1] S384
  shapeCasts_S384_S384x1 : S384.ShapeCasts S384x1
  shapeCasts_S384x1_S1x384 : S384x1.ShapeCasts S1x384
  transposes_S384x128_p1_0_S128x384 : S384x128.Transposes [1, 0] S128x384
  broadcasts_S8x1_S8x384 : S8x1.Broadcasts S8x384
  broadcasts_S1x384_S8x384 : S1x384.Broadcasts S8x384
  shapeCasts_S8x384_S8x1x384 : S8x384.ShapeCasts S8x1x384
  shapeCasts_S8x384_S8x384x1 : S8x384.ShapeCasts S8x384x1
  broadcasts_S8x1x384_S8x384x384 : S8x1x384.Broadcasts S8x384x384
  broadcasts_S8x384x1_S8x384x384 : S8x384x1.Broadcasts S8x384x384
  inb_S8x384x384_S8x384x384_0_0_0 : ∀ a, (![0, 0, 0] : Fin 3 → Nat) a + S8x384x384.size a ≤ S8x384x384.size a
  h_S8x384x384 : 0 < S8x384x384.numel
  shapeCasts_S8x384x384_S8x384x384 : S8x384x384.ShapeCasts S8x384x384
  reduces_S8x384x384_S8x384 : S8x384x384.Reduces [2] S8x384
  inb_S8x32_S8x32_0_0 : ∀ a, (![0, 0] : Fin 2 → Nat) a + S8x32.size a ≤ S8x32.size a
  h_S8x32 : 0 < S8x32.numel
  inb_S384x32_S384x32_0_0 : ∀ a, (![0, 0] : Fin 2 → Nat) a + S384x32.size a ≤ S384x32.size a
  h_S384x32 : 0 < S384x32.numel
  reduces_S8x32_S8 : S8x32.Reduces [1] S8
  reduces_S384x32_S384 : S384x32.Reduces [1] S384
  transposes_S384x32_p1_0_S32x384 : S384x32.Transposes [1, 0] S32x384
  reduces_S8x384_S8 : S8x384.Reduces [1] S8
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  dot_S8x128_S128x384_S8x384_1_0_0_1_n_n_wf : DotDims.WF S8x128 S128x384 S8x384 [1] [0] [0] [1] [] []
  dot_S8x32_S32x384_S8x384_1_0_0_1_n_n_wf : DotDims.WF S8x32 S32x384 S8x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S384x128.size a
  hwx0_0 : ∀ i : grid0.Coords, EltTy.bits .f32 = 32 ∨ (Rect.block (s := S384x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S384x32.size a
  hwx0_2 : ∀ i : grid0.Coords, EltTy.bits .f32 = 32 ∨ (Rect.block (s := S384x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x32.size a ≤ S384x32.size a
  hwx0_3 : ∀ i : grid0.Coords, EltTy.bits .f32 = 32 ∨ (Rect.block (s := S384x32) S384x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S8x128_S128x384_S8x384_1_0_0_1_n_n : DotDims S8x128 S128x384 S8x384 where
  lhsContracting := [1]
  rhsContracting := [0]
  lhsNonContracting := [0]
  rhsNonContracting := [1]
  lhsBatch := []
  rhsBatch := []
  wf := dot_S8x128_S128x384_S8x384_1_0_0_1_n_n_wf
def dot_S8x32_S32x384_S8x384_1_0_0_1_n_n : DotDims S8x32 S32x384 S8x384 where
  lhsContracting := [1]
  rhsContracting := [0]
  lhsNonContracting := [0]
  rhsNonContracting := [1]
  lhsBatch := []
  rhsBatch := []
  wf := dot_S8x32_S32x384_S8x384_1_0_0_1_n_n_wf

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S384x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S384x128 : Shape := ⟨2, ![384, 128]⟩
abbrev S384x32 : Shape := ⟨2, ![384, 32]⟩
abbrev S_ : Shape := ⟨0, ![]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S128x384 : Shape := ⟨2, ![128, 384]⟩
abbrev S32x384 : Shape := ⟨2, ![32, 384]⟩
abbrev S384x1x384 : Shape := ⟨3, ![384, 1, 384]⟩
abbrev S384x384x1 : Shape := ⟨3, ![384, 384, 1]⟩
abbrev S384x384x384 : Shape := ⟨3, ![384, 384, 384]⟩

abbrev nBuf : Space → Nat
  | .hbm => 136
  | .vmem => 0
  | .smem => 0
  | _ => 0

abbrev hbmTy0_0 (i : Nat) : BufTy := match i % 128 with
  | 0 => ⟨S384x128, .f32⟩
  | 1 => ⟨S384x32, .f32⟩
  | 2 => ⟨S384x128, .f32⟩
  | 3 => ⟨S_, .f32⟩
  | 4 => ⟨S384, .f32⟩
  | 5 => ⟨S384x1, .f32⟩
  | 6 => ⟨S384x128, .f32⟩
  | 7 => ⟨S_, .f32⟩
  | 8 => ⟨S384, .f32⟩
  | 9 => ⟨S1x384, .f32⟩
  | 10 => ⟨S384x384, .f32⟩
  | 11 => ⟨S384x384, .f32⟩
  | 12 => ⟨S384x384, .f32⟩
  | 13 => ⟨S128x384, .f32⟩
  | 14 => ⟨S384x384, .f32⟩
  | 15 => ⟨S_, .f32⟩
  | 16 => ⟨S384x384, .f32⟩
  | 17 => ⟨S384x384, .f32⟩
  | 18 => ⟨S384x384, .f32⟩
  | 19 => ⟨S_, .f32⟩
  | 20 => ⟨S384x384, .f32⟩
  | 21 => ⟨S384x384, .f32⟩
  | 22 => ⟨S_, .f32⟩
  | 23 => ⟨S384x384, .f32⟩
  | 24 => ⟨S384x384, .i1⟩
  | 25 => ⟨S_, .f32⟩
  | 26 => ⟨S_, .f32⟩
  | 27 => ⟨S384x384, .f32⟩
  | 28 => ⟨S384x384, .f32⟩
  | 29 => ⟨S384x384, .f32⟩
  | 30 => ⟨S_, .f32⟩
  | 31 => ⟨S_, .f32⟩
  | 32 => ⟨S384x384, .f32⟩
  | 33 => ⟨S384x384, .f32⟩
  | 34 => ⟨S384x32, .f32⟩
  | 35 => ⟨S_, .f32⟩
  | 36 => ⟨S384, .f32⟩
  | 37 => ⟨S384x1, .f32⟩
  | 38 => ⟨S384x32, .f32⟩
  | 39 => ⟨S_, .f32⟩
  | 40 => ⟨S384, .f32⟩
  | 41 => ⟨S1x384, .f32⟩
  | 42 => ⟨S384x384, .f32⟩
  | 43 => ⟨S384x384, .f32⟩
  | 44 => ⟨S384x384, .f32⟩
  | 45 => ⟨S32x384, .f32⟩
  | 46 => ⟨S384x384, .f32⟩
  | 47 => ⟨S_, .f32⟩
  | 48 => ⟨S384x384, .f32⟩
  | 49 => ⟨S384x384, .f32⟩
  | 50 => ⟨S384x384, .f32⟩
  | 51 => ⟨S_, .f32⟩
  | 52 => ⟨S384x384, .f32⟩
  | 53 => ⟨S384x384, .f32⟩
  | 54 => ⟨S_, .f32⟩
  | 55 => ⟨S384x384, .f32⟩
  | 56 => ⟨S384x384, .i1⟩
  | 57 => ⟨S_, .f32⟩
  | 58 => ⟨S_, .f32⟩
  | 59 => ⟨S384x384, .f32⟩
  | 60 => ⟨S384x384, .f32⟩
  | 61 => ⟨S384x384, .f32⟩
  | 62 => ⟨S_, .f32⟩
  | 63 => ⟨S_, .f32⟩
  | 64 => ⟨S384x384, .f32⟩
  | 65 => ⟨S384x384, .f32⟩
  | 66 => ⟨S384x1x384, .f32⟩
  | 67 => ⟨S384x384x1, .f32⟩
  | 68 => ⟨S384x384x384, .f32⟩
  | 69 => ⟨S384x384x384, .f32⟩
  | 70 => ⟨S384x384x384, .f32⟩
  | 71 => ⟨S_, .f32⟩
  | 72 => ⟨S384x384x384, .f32⟩
  | 73 => ⟨S384x384x384, .f32⟩
  | 74 => ⟨S384x384x384, .f32⟩
  | 75 => ⟨S384x384x384, .f32⟩
  | 76 => ⟨S_, .f32⟩
  | 77 => ⟨S384x384x384, .f32⟩
  | 78 => ⟨S384x384x384, .f32⟩
  | 79 => ⟨S_, .f32⟩
  | 80 => ⟨S384x384x384, .f32⟩
  | 81 => ⟨S384x384x384, .f32⟩
  | 82 => ⟨S_, .f32⟩
  | 83 => ⟨S384x384, .f32⟩
  | 84 => ⟨S_, .f32⟩
  | 85 => ⟨S384x384, .f32⟩
  | 86 => ⟨S384x384, .f32⟩
  | 87 => ⟨S_, .f32⟩
  | 88 => ⟨S384x384, .f32⟩
  | 89 => ⟨S384x384, .f32⟩
  | 90 => ⟨S_, .f32⟩
  | 91 => ⟨S384x384, .f32⟩
  | 92 => ⟨S384x384, .f32⟩
  | 93 => ⟨S384x1x384, .f32⟩
  | 94 => ⟨S384x384x1, .f32⟩
  | 95 => ⟨S384x384x384, .f32⟩
  | 96 => ⟨S384x384x384, .f32⟩
  | 97 => ⟨S384x384x384, .f32⟩
  | 98 => ⟨S_, .f32⟩
  | 99 => ⟨S384x384x384, .f32⟩
  | 100 => ⟨S384x384x384, .f32⟩
  | 101 => ⟨S384x384x384, .f32⟩
  | 102 => ⟨S384x384x384, .f32⟩
  | 103 => ⟨S_, .f32⟩
  | 104 => ⟨S384x384x384, .f32⟩
  | 105 => ⟨S384x384x384, .f32⟩
  | 106 => ⟨S_, .f32⟩
  | 107 => ⟨S384x384x384, .f32⟩
  | 108 => ⟨S384x384x384, .f32⟩
  | 109 => ⟨S_, .f32⟩
  | 110 => ⟨S384x384, .f32⟩
  | 111 => ⟨S_, .f32⟩
  | 112 => ⟨S384x384, .f32⟩
  | 113 => ⟨S384x384, .f32⟩
  | 114 => ⟨S_, .f32⟩
  | 115 => ⟨S384x384, .f32⟩
  | 116 => ⟨S384x384, .f32⟩
  | 117 => ⟨S_, .f32⟩
  | 118 => ⟨S384x384, .f32⟩
  | 119 => ⟨S384x384, .f32⟩
  | 120 => ⟨S_, .f32⟩
  | 121 => ⟨S_, .f32⟩
  | 122 => ⟨S_, .f32⟩
  | 123 => ⟨S384x384, .f32⟩
  | 124 => ⟨S384x384, .f32⟩
  | 125 => ⟨S_, .f32⟩
  | 126 => ⟨S384x384, .f32⟩
  | 127 => ⟨S384x384, .f32⟩
  | _ => ⟨S384x128, .f32⟩

abbrev hbmTy0_1 (i : Nat) : BufTy := match i % 128 with
  | 0 => ⟨S_, .f32⟩
  | 1 => ⟨S384x384, .f32⟩
  | 2 => ⟨S384x384, .f32⟩
  | 3 => ⟨S384x384, .f32⟩
  | 4 => ⟨S_, .f32⟩
  | 5 => ⟨S_, .f32⟩
  | 6 => ⟨S_, .f32⟩
  | 7 => ⟨S_, .f32⟩
  | _ => ⟨S384x128, .f32⟩

abbrev hbmTy (i : Nat) : BufTy := match i / 128 with
  | 0 => hbmTy0_0 i
  | 1 => hbmTy0_1 i
  | _ => ⟨S384x128, .f32⟩

abbrev bufTy : (tb : Table) → Fin (tcTables nBuf tb) → BufTy
  | .hbm, ⟨i, _⟩ => hbmTy i
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_call2_v0 : Ref sig .tc := ⟨.hbm, 58, rfl⟩
abbrev main_call2_v1 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_call3_v0 : Ref sig .tc := ⟨.hbm, 63, rfl⟩
abbrev main_call3_v1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_cst_15 : Ref sig .tc := ⟨.hbm, 79, rfl⟩
abbrev main_v53 : Ref sig .tc := ⟨.hbm, 80, rfl⟩
abbrev main_v54 : Ref sig .tc := ⟨.hbm, 81, rfl⟩
abbrev main_cst_16 : Ref sig .tc := ⟨.hbm, 82, rfl⟩
abbrev main_v55 : Ref sig .tc := ⟨.hbm, 83, rfl⟩
abbrev main_cst_17 : Ref sig .tc := ⟨.hbm, 84, rfl⟩
abbrev main_v56 : Ref sig .tc := ⟨.hbm, 85, rfl⟩
abbrev main_v57 : Ref sig .tc := ⟨.hbm, 86, rfl⟩
abbrev main_cst_18 : Ref sig .tc := ⟨.hbm, 87, rfl⟩
abbrev main_v58 : Ref sig .tc := ⟨.hbm, 88, rfl⟩
abbrev main_v59 : Ref sig .tc := ⟨.hbm, 89, rfl⟩
abbrev main_call4_cst : Ref sig .tc := ⟨.hbm, 90, rfl⟩
abbrev main_call4_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_20 : Ref sig .tc := ⟨.hbm, 103, rfl⟩
abbrev main_v70 : Ref sig .tc := ⟨.hbm, 104, rfl⟩
abbrev main_v71 : Ref sig .tc := ⟨.hbm, 105, rfl⟩
abbrev main_cst_21 : Ref sig .tc := ⟨.hbm, 106, rfl⟩
abbrev main_v72 : Ref sig .tc := ⟨.hbm, 107, rfl⟩
abbrev main_v73 : Ref sig .tc := ⟨.hbm, 108, rfl⟩
abbrev main_cst_22 : Ref sig .tc := ⟨.hbm, 109, rfl⟩
abbrev main_v74 : Ref sig .tc := ⟨.hbm, 110, rfl⟩
abbrev main_cst_23 : Ref sig .tc := ⟨.hbm, 111, rfl⟩
abbrev main_v75 : Ref sig .tc := ⟨.hbm, 112, rfl⟩
abbrev main_v76 : Ref sig .tc := ⟨.hbm, 113, rfl⟩
abbrev main_cst_24 : Ref sig .tc := ⟨.hbm, 114, rfl⟩
abbrev main_v77 : Ref sig .tc := ⟨.hbm, 115, rfl⟩
abbrev main_v78 : Ref sig .tc := ⟨.hbm, 116, rfl⟩
abbrev main_cst_25 : Ref sig .tc := ⟨.hbm, 117, rfl⟩
abbrev main_v79 : Ref sig .tc := ⟨.hbm, 118, rfl⟩
abbrev main_v80 : Ref sig .tc := ⟨.hbm, 119, rfl⟩
abbrev main_cst_26 : Ref sig .tc := ⟨.hbm, 120, rfl⟩
abbrev main_cst_27 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v81 : Ref sig .tc := ⟨.hbm, 127, rfl⟩
abbrev main_cst_28 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_29 : Ref sig .tc := ⟨.hbm, 132, rfl⟩
abbrev main_v85 : Ref sig .tc := ⟨.hbm, 133, rfl⟩
abbrev main_cst_30 : Ref sig .tc := ⟨.hbm, 134, rfl⟩
abbrev main_v86 : Ref sig .tc := ⟨.hbm, 135, rfl⟩

abbrev nD : Nat := 1
abbrev τ : Topo := Topo.v7x

variable {F : FTy → Type} [FloatOps F]

class Facts₀ : Prop where
  reducesTo_S384x128_S384_d1 : S384x128.ReducesTo [1] S384
  h_S_ : 0 < S_.numel
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  transposes_S384x128_S128x384_1_0 : S384x128.Transposes [1, 0] S128x384
  bcast_S_S384x384 : S_.BroadcastsInDim S384x384 (![] : Fin 0 → Fin S384x384.rank)
  reducesTo_S384x32_S384_d1 : S384x32.ReducesTo [1] S384
  transposes_S384x32_S32x384_1_0 : S384x32.Transposes [1, 0] S32x384
  bcast_S384x384_S384x1x384_0_2 : S384x384.BroadcastsInDim S384x1x384 (![0, 2] : Fin 2 → Fin S384x1x384.rank)
  bcast_S384x384_S384x384x1_0_1 : S384x384.BroadcastsInDim S384x384x1 (![0, 1] : Fin 2 → Fin S384x384x1.rank)
  bcast_S384x1x384_S384x384x384_0_1_2 : S384x1x384.BroadcastsInDim S384x384x384 (![0, 1, 2] : Fin 3 → Fin S384x384x384.rank)
  bcast_S384x384x1_S384x384x384_0_1_2 : S384x384x1.BroadcastsInDim S384x384x384 (![0, 1, 2] : Fin 3 → Fin S384x384x384.rank)
  bcast_S_S384x384x384 : S_.BroadcastsInDim S384x384x384 (![] : Fin 0 → Fin S384x384x384.rank)
  reducesTo_S384x384x384_S384x384_d2 : S384x384x384.ReducesTo [2] S384x384
  reducesTo_S384x384_S_d0_1 : S384x384.ReducesTo [0, 1] S_
  dot_S384x128_S128x384_S384x384_1_0_0_1_n_n_wf : DotDims.WF S384x128 S128x384 S384x384 [1] [0] [0] [1] [] []
  dot_S384x32_S32x384_S384x384_1_0_0_1_n_n_wf : DotDims.WF S384x32 S32x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf
def dot_S384x32_S32x384_S384x384_1_0_0_1_n_n : DotDims S384x32 S32x384 S384x384 where
  lhsContracting := [1]
  rhsContracting := [0]
  lhsNonContracting := [0]
  rhsNonContracting := [1]
  lhsBatch := []
  rhsBatch := []
  wf := dot_S384x32_S32x384_S384x384_1_0_0_1_n_n_wf

class Facts : Prop extends Facts₀ where

variable [Facts]
-- ==== Proof.K.Setup.lean ====
/-
  What the per-point runs of the row-tile kernel are stated over.  The kernel walks 48 row tiles of 8 rows; at each
  tile it is handed the tile's 8 rows of X and of Z, the whole of X and of Z (the same two arrays again, through
  two further windows), and a one-element accumulator it resets at the first tile and adds to at every tile.
-/
import proofs.«136826_j5634997093005_1_alg».proof.Proof.Gen.Kernel.Launch
import proofs.«136826_j5634997093005_1_alg».proof.Proof.Gen.Kernel.Skeleton
import proofs.«136826_j5634997093005_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the kernel region is entered: as launched, the region being the first thing
    the program does. -/
abbrev V (c : Dev nD) (b : Ref sig .tc) : Buf (Elt F) ((c : Thread nD τ).loc b) := m ((c : Thread nD τ).loc b)

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's one branch: "this is the first tile". -/
abbrev isFirst (i : grid0.Coords) : Prop := (Scalar.cmpi .ne (Scalar.extui (Scalar.cmpi .eq (BitVec.ofNat 32 (i 0).val) 0#32)) 0#32) = 1#1
/-- It holds at tile 0 only. -/
theorem isFirst_iff : ∀ t : Fin cfg0.N, isFirst (grid0.coords t) ↔ t.val = 0 :=
  (by decide +kernel : ∀ t : Fin grid0.N, isFirst (grid0.coords t) ↔ t.val = 0)

/-- Each window's current staging memref at tile `t`, as the pipeline passes it, and its wholeness. -/
abbrev ms0 (t : Fin cfg0.N) : Memref sig .tc .vmem S8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch the body keeps its 8 × 384 × 384 table of sigmoids in. -/
abbrev msS : Memref sig .tc .vmem S8x384x384 .f32 := Memref.whole cc0_scratch0
abbrev hsS : (msS).IsWhole := Memref.isWhole_whole _

/-- One staging buffer of the accumulator window, through which its contents are stated. -/
abbrev VOacc : View sig .tc .vmem S1x1 .f32 := (Memref.whole cc0_stg4_0 : Memref sig .tc .vmem S1x1 .f32).view

end Cert.Kernel.Tile

end
-- ==== Proof.K.RunFirst.lean ====
/-
  The body at the first tile: the accumulator is reset to zero, the two tables of sigmoids are stored into the
  scratch and read back, and the tile's partial sum is added to the accumulator.
-/
import proofs.«136826_j5634997093005_1_alg».proof.Proof.K.Setup

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the first tile: on whole staging memrefs holding the four input blocks, the accumulator's buffer at anything
    and the scratch at anything, the body runs to the end; the inputs are as they were, the accumulator's buffer holds
    the pieces its stores left (the witness), the scratch holds something. -/
noncomputable def runFirst (c : Dev nD) (i : grid0.Coords)
    (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole)
    (hc0 : isFirst i)
    (x0 : Vec F S8x128 .f32) (x1 : Vec F S384x128 .f32) (x2 : Vec F S8x32 .f32) (x3 : Vec F S384x32 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ d, owns (c : Thread nD τ) arg6 fullShare d)) -∗ K ⟨⟩))
          ⊢ wp frame (wpE (defs₀ (F := F)) Variants.none c none) E (cc0__trust_kernel i arg1 harg1 arg2 harg2 arg3 harg3 arg4 harg4 arg5 harg5 arg6 harg6) K } := by
  refine ⟨?_, fun E K => ?run⟩
  case run =>
    simp only [cc0__trust_kernel_eq_skeleton]; unfold cc0__trust_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _, _; isplitr
    swap; · iexact H5
    ipureintro; rfl

end Cert.Kernel.Tile

end
-- ==== Proof.K.RunLater.lean ====
/-
  The body at every tile after the first: the accumulator is not reset; the tile's partial sum is added to what the
  tile before left in it.
-/
import proofs.«136826_j5634997093005_1_alg».proof.Proof.K.Setup

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a later tile: on whole staging memrefs holding the four input blocks, the accumulator's buffer at what the tile before left (\`acc\`)
    and the scratch at anything, the body runs to the end; the inputs are as they were, the accumulator's buffer holds
    the pieces its stores left (the witness), the scratch holds something. -/
noncomputable def runLater (c : Dev nD) (i : grid0.Coords)
    (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole)
    (hc0 : ¬isFirst i)
    (x0 : Vec F S8x128 .f32) (x1 : Vec F S384x128 .f32) (x2 : Vec F S8x32 .f32) (x3 : Vec F S384x32 .f32) (acc : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare acc ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ d, owns (c : Thread nD τ) arg6 fullShare d)) -∗ K ⟨⟩))
          ⊢ wp frame (wpE (defs₀ (F := F)) Variants.none c none) E (cc0__trust_kernel i arg1 harg1 arg2 harg2 arg3 harg3 arg4 harg4 arg5 harg5 arg6 harg6) K } := by
  refine ⟨?_, fun E K => ?run⟩
  case run =>
    simp only [cc0__trust_kernel_eq_skeleton]; unfold cc0__trust_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _, _; isplitr
    swap; · iexact H5
    ipureintro; rfl

end Cert.Kernel.Tile

end
-- ==== Proof.K.Points.lean ====
/-
  What the accumulator holds after each tile, the pipeline's proof data, and the body's obligation at every tile.
  The accumulator after tile 0 is what the first-tile run leaves over nothing; after tile n + 1 it is what the
  later-tile run leaves over the accumulator after tile n.  The four input windows hold their blocks throughout.
-/
import proofs.«136826_j5634997093005_1_alg».proof.Proof.K.RunFirst
import proofs.«136826_j5634997093005_1_alg».proof.Proof.K.RunLater

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Input window 0's current staging buffer holds its block at every tile, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every tile, fetched there or not, for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every tile, fetched there or not, for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every tile, fetched there or not, for any proof data
    whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The first tile's stores into the accumulator's buffer cover its one element. -/
theorem coverFirst (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : isFirst i)
    (x0 : Vec F S8x128 .f32) (x1 : Vec F S384x128 .f32) (x2 : Vec F S8x32 .f32) (x3 : Vec F S384x32 .f32) (y : S1x1.Idx) :
    ∃ pc ∈ (runFirst c i arg1 harg1 arg2 harg2 arg3 harg3 arg4 harg4 arg5 harg5 arg6 harg6 hc0 x0 x1 x2 x3).1, y ∈ pc.1.set :=
  View.cover_of_tiledL (runFirst c i arg1 harg1 arg2 harg2 arg3 harg3 arg4 harg4 arg5 harg5 arg6 harg6 hc0 x0 x1 x2 x3).1 S1x1.size (by sl_kernel_rfl) y

/-- What the first tile leaves in the accumulator's buffer: its pieces read back. -/
def accFirst (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : isFirst i)
    (x0 : Vec F S8x128 .f32) (x1 : Vec F S384x128 .f32) (x2 : Vec F S8x32 .f32) (x3 : Vec F S384x32 .f32) : Vec F S1x1 .f32 :=
  VOacc.read (Elt F) (VOacc.writes (Elt F) VOacc.junk (runFirst c i arg1 harg1 arg2 harg2 arg3 harg3 arg4 harg4 arg5 harg5 arg6 harg6 hc0 x0 x1 x2 x3).1)

/-- A later tile's store into the accumulator's buffer covers its one element. -/
theorem coverLater (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : ¬isFirst i)
    (x0 : Vec F S8x128 .f32) (x1 : Vec F S384x128 .f32) (x2 : Vec F S8x32 .f32) (x3 : Vec F S384x32 .f32) (acc : Vec F S1x1 .f32) (y : S1x1.Idx) :
    ∃ pc ∈ (runLater c i arg1 harg1 arg2 harg2 arg3 harg3 arg4 harg4 arg5 harg5 arg6 harg6 hc0 x0 x1 x2 x3 acc).1, y ∈ pc.1.set :=
  View.cover_of_tiledL (runLater c i arg1 harg1 arg2 harg2 arg3 harg3 arg4 harg4 arg5 harg5 arg6 harg6 hc0 x0 x1 x2 x3 acc).1 S1x1.size (by sl_kernel_rfl) y

/-- What a later tile leaves in the accumulator's buffer over `acc`: its pieces read back. -/
def accLater (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : ¬isFirst i)
    (x0 : Vec F S8x128 .f32) (x1 : Vec F S384x128 .f32) (x2 : Vec F S8x32 .f32) (x3 : Vec F S384x32 .f32) (acc : Vec F S1x1 .f32) : Vec F S1x1 .f32 :=
  VOacc.read (Elt F) (VOacc.writes (Elt F) VOacc.junk (runLater c i arg1 harg1 arg2 harg2 arg3 harg3 arg4 harg4 arg5 harg5 arg6 harg6 hc0 x0 x1 x2 x3 acc).1)

/-- THE ACCUMULATION: what the accumulator's staging buffer holds after the body at tile `n`. -/
def accAt (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) msS hsS ((isFirst_iff ⟨0, hn⟩).mpr rfl) (iblk m c 0 ⟨0, hn⟩) (iblk m c 1 ⟨0, hn⟩) (iblk m c 2 ⟨0, hn⟩) (iblk m c 3 ⟨0, hn⟩)
  | n + 1, hn => accLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) msS hsS (fun h => Nat.succ_ne_zero n ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_first (c : Dev nD) (t : Fin cfg0.N) (h0 : t.val = 0) :
    accAt m c t.val t.isLt = accFirst c (grid0.coords t) (ms0 t) (hs0 t) (ms1 t) (hs1 t) (ms2 t) (hs2 t) (ms3 t) (hs3 t) (ms4 t) (hs4 t) msS hsS ((isFirst_iff t).mpr h0) (iblk m c 0 t) (iblk m c 1 t) (iblk m c 2 t) (iblk m c 3 t) := by
  obtain ⟨n, hn⟩ := t
  cases n with
  | zero => exact rfl
  | succ n => exact absurd h0 (Nat.succ_ne_zero n)

theorem accAt_later (c : Dev nD) (t : Fin cfg0.N) (h0 : ¬t.val = 0) :
    accAt m c t.val t.isLt = accLater c (grid0.coords t) (ms0 t) (hs0 t) (ms1 t) (hs1 t) (ms2 t) (hs2 t) (ms3 t) (hs3 t) (ms4 t) (hs4 t) msS hsS (fun h => h0 ((isFirst_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact rfl

/-- The proof data of the one pipeline on core `c`: the arrays as the region finds them; after the body at tile `t`
    each input's buffer at its block and the accumulator's at `accAt`; the invariant says only that the scratch is
    there; nothing owed.  X and Z are each read through two windows: each of the two holds half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At a later tile the accumulator's buffer holds what the body left at the tile before: it is written back only
    after the last tile. -/
theorem before4_later (c : Dev nD) (t : Fin cfg0.N) (h0 : ¬t.val = 0) (d) :
    (dats m 0 c).before 4 t d = accAt m c (t.val - 1) (Nat.lt_of_le_of_lt (Nat.sub_le _ _) t.isLt) := by
  have hN : t.val < 48 := lt_of_lt_of_eq t.isLt (show cfg0.N = 48 from N_0)
  rw [Dat.before_out_kept _ 4 rfl t h0 (Bool.eq_false_iff.mpr fun h => by have := (flush0_4 _).mp h; dsimp only at this; omega)
    (fun _ => rfl) (fun _ _ => rfl)]
  dsimp only [dats]

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any tile: the inputs' memrefs hold their blocks; at the first tile the accumulator's buffer holds
    anything and the first-tile run applies, at a later one it holds what the tile before left and the later-tile run
    applies; the scratch is taken out of the invariant for the run and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.scopedRest spec0 c from rfl]
  have hS : (iprop(∃ f : Buf (Elt F) ((c : Thread nD τ).loc cc0_scratch0), ((c : Thread nD τ).loc cc0_scratch0) ↦{fullShare} f) : sProp 𝕄)
      = iprop(∃ X, owns (c : Thread nD τ) msS fullShare X) := (hsS.exists_owns_eq (c := (c : Thread nD τ)) fullShare).symm
  rw [scopedRest0_eq, hS]
  by_cases h0 : t.val = 0
  · rw [accAt_first m c t h0]
    unfold accFirst
    iintro ⟨⟨%dS, HS⟩, Ho, ⟨%d0, H0⟩, ⟨%d1, H1⟩, ⟨%d2, H2⟩, ⟨%d3, H3⟩, ⟨%d4, H4⟩⟩
    iapply ((runFirst c (grid0.coords t) _ _ _ _ _ _ _ _ _ _ msS hsS ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, ⟨%e4, H4⟩, ⟨%dS', HS⟩⟩
    isplitl [HS]; · iexists _; iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _ _)
  · rw [accAt_later m c t h0]
    simp only [before4_later m c t h0]
    unfold accLater
    iintro ⟨⟨%dS, HS⟩, Ho, ⟨%d0, H0⟩, ⟨%d1, H1⟩, ⟨%d2, H2⟩, ⟨%d3, H3⟩, ⟨%d4, H4⟩⟩
    iapply ((runLater c (grid0.coords t) _ _ _ _ _ _ _ _ _ _ msS hsS (fun h => h0 ((isFirst_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, ⟨%e4, H4⟩, ⟨%dS', HS⟩⟩
    isplitl [HS]; · iexists _; iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _ _)

/-- The library's body obligation, at every tile. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.K.Launch.lean ====
/-
  The launch: from the body's obligation at every tile to the run of the whole program.  X and Z are each handed to
  the kernel through two windows, so each array's full share is dealt to its two windows half and half at the
  entry and collected again at the end; after the kernel region the program reshapes the accumulator and scales it,
  three host operations that touch the accumulator's array and three fresh buffers only.
-/
import proofs.«136826_j5634997093005_1_alg».proof.Proof.K.Points

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the three host operations after the region touch: the accumulator's array and three fresh buffers. -/
abbrev tailRefs0 : Finset (Ref sig .tc) := {main_v0, main_v1, main_cst, main_v2}
abbrev tailSet : Finset (DevRef τ sig) := tailRefs0.map ⟨Proc.devRef (sig := sig) (.tc : Proc τ), Proc.devRef_injective _⟩

theorem mem_tailSet {r : Ref sig .tc} (h : r ∈ tailRefs0) : Proc.devRef (τ := τ) .tc r ∈ tailSet := Finset.mem_map_of_mem _ h

/-- Those four buffers held at contents `W`, one by one. -/
theorem held_tail (c : Dev nD) (W : Valuation τ sig (Elt F)) :
    (StableHlo.held ((c : Thread nD τ)) tailSet W : sProp 𝕄)
      = iprop((((c : Thread nD τ).loc main_v0) ↦{fullShare} W (Proc.devRef .tc main_v0))
          ∗ (((c : Thread nD τ).loc main_v1) ↦{fullShare} W (Proc.devRef .tc main_v1))
          ∗ (((c : Thread nD τ).loc main_cst) ↦{fullShare} W (Proc.devRef .tc main_cst))
          ∗ (((c : Thread nD τ).loc main_v2) ↦{fullShare} W (Proc.devRef .tc main_v2))) := by
  unfold StableHlo.held tailSet
  rw [bigSep_map]
  exact bigSep_eq_bigSepL_of_eq [main_v0, main_v1, main_cst, main_v2] (by decide) (by decide) _

/-- The core's buffers when the region is left: the accumulator's array at what the last write-back left, every
    other buffer as launched. -/
def Wexit (c : Dev nD) : Valuation τ sig (Elt F) :=
  Function.update (fun b => m (c, b)) (Proc.devRef .tc main_v0) ((dats m 0 c).arrAt 4 cfg0.N)

/-- The program's result buffer after the three host operations. -/
def resultAt (c : Dev nD) : Buf (Elt F) ((c.tc : Thread nD τ).loc main_v2) :=
  StableHlo.after (hostOps1 (F := F)) (Wexit m c) (Proc.devRef .tc main_v2)

set_option backward.isDefEq.respectTransparency.types false in
/-- THE RUN: every weakly fair execution of the program terminates, without a fault, with the result buffer at
    `resultAt` and both argument arrays as launched. -/
theorem run_main : θ_run defs (onTc (τ := τ) (main (F := F))) ⟨m, fun _ => 0, ρ⟩ (fun r => ∀ c : Dev nD,
      r.2.mem ((c.tc : Thread nD τ).loc main_v2) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  refine Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (fun c => (body_obligation m c).loose) block_pos0 arr_whole0 stage_whole0 (fun _ _ => rfl)
    (u₀ := Rounds.initOf (Pipeline.cells cfgs cellOf_inj) (Pipeline.launchToks cfgs cellOf_inj)) (hu₀ := ?hu0)
    (V := V m) (hmain := ?hmain) (hsplit := ?hsplit) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => iprop((((c : Thread nD τ).loc main_v1) ↦{fullShare} StableHlo.after (hostOps1 (F := F)) (Wexit m c) (Proc.devRef .tc main_v1))
        ∗ (((c : Thread nD τ).loc main_cst) ↦{fullShare} StableHlo.after (hostOps1 (F := F)) (Wexit m c) (Proc.devRef .tc main_cst))
        ∗ (((c : Thread nD τ).loc main_v2) ↦{fullShare} StableHlo.after (hostOps1 (F := F)) (Wexit m c) (Proc.devRef .tc main_v2))))
    (hX := ?hX) (hin := ?hin) (hout := ?hout) (htail := ?htail)
    (QY := fun c s => s.mem ((c.tc : Thread nD τ).loc main_v2) = resultAt m c) (hY := ?hY) (hQ := ?hQ)
  case hu0 => exact .rfl
  case hmain =>
    exact Pipeline.hmain_around cfgs 0 defs₀ Variants.none m main [] [hostOps1] (by trivial) (by trivial) (fun c => (main_chain c).trans rfl)
  case hsplit =>
    intro c
    have hL : (Pipeline.arrBufs (Ix := Unit) (Name := ℕ) (U := UR sig nD τ) (Lvl := ℕ) spec0 c (V m c) : sProp 𝕄)
        = iprop((((c : Thread nD τ).loc main_arg0) ↦{fullShare} V m c main_arg0) ∗ (((c : Thread nD τ).loc main_arg1) ↦{fullShare} V m c main_arg1)
            ∗ (((c : Thread nD τ).loc main_v0) ↦{fullShare} V m c main_v0)) := by
      unfold Pipeline.arrBufs
      exact bigSep_eq_bigSepL_of_eq [main_arg0, main_arg1, main_v0] (by decide) (by decide) _
    refine (Entails.of_eq hL).trans ?_
    unfold Pipeline.Dat.arrays
    rw [bigSep_W0]
    rw [(arr_whole0 0).set_eq_univ, (arr_whole0 2).set_eq_univ, (arr_whole0 4).set_eq_univ]
    iintro ⟨H0, H1, Hv⟩
    ihave H0' := (pointsTo_share (PosShare.mem_left_op_right fullShare)).1 $$ H0
    ihave H1' := (pointsTo_share (PosShare.mem_left_op_right fullShare)).1 $$ H1
    icases H0' with ⟨H0l, H0r⟩
    icases H1' with ⟨H1l, H1r⟩
    isplitl [H0l]; · iexact H0l
    isplitl [H0r]; · iexact H0r
    isplitl [H1l]; · iexact H1l
    isplitl [H1r]; · iexact H1r
    iexact Hv
  case hX =>
    intro c
    rw [Pipeline.unscopedRestP_none]
    iintro H
    isplitr; · iempintro
    iexact H
  case hin =>
    intro c
    show _ ⊢ Pipeline.scopedRest spec0 c
    iintro ⟨-, -, Hr⟩
    iexact Hr
  case hout =>
    intro c
    show Pipeline.scopedRest spec0 c ⊢ _
    iintro Hr
    isplitr; · iempintro
    iexact Hr
  case htail =>
    intro c Q'
    rw [unscopedRest0_eq]
    unfold Pipeline.Dat.arrays
    rw [bigSep_W0]
    rw [(arr_whole0 4).set_eq_univ]
    have hW0 : Wexit m c (Proc.devRef .tc main_v0) = (dats m 0 c).arrAt 4 cfg0.N := Function.update_self _ _ _
    have hW1 : Wexit m c (Proc.devRef .tc main_v1) = V m c main_v1 :=
      Function.update_of_ne (StableHlo.devRef_ne_of_ne (by decide)) _ _
    have hWc : Wexit m c (Proc.devRef .tc main_cst) = V m c main_cst :=
      Function.update_of_ne (StableHlo.devRef_ne_of_ne (by decide)) _ _
    have hW2 : Wexit m c (Proc.devRef .tc main_v2) = V m c main_v2 :=
      Function.update_of_ne (StableHlo.devRef_ne_of_ne (by decide)) _ _
    have hkeep : StableHlo.after (hostOps1 (F := F)) (Wexit m c) (Proc.devRef .tc main_v0) = (dats m 0 c).arrAt 4 cfg0.N :=
      (StableHlo.after_of_writes_sub (W := [main_v1, main_cst, main_v2]) hostOps1 (Wexit m c)
        ⟨by simp, by simp, by simp⟩ (by decide)).trans hW0
    have hpost : (StableHlo.held (c : Thread nD τ) tailSet (StableHlo.after ([hostOps1] : List (List (HloOp τ sig (Elt F)))).flatten (Wexit m c)) : sProp 𝕄)
        = iprop((((c : Thread nD τ).loc main_v0) ↦{fullShare} (dats m 0 c).arrAt 4 cfg0.N)
          ∗ (((c : Thread nD τ).loc main_v1) ↦{fullShare} StableHlo.after (hostOps1 (F := F)) (Wexit m c) (Proc.devRef .tc main_v1))
          ∗ (((c : Thread nD τ).loc main_cst) ↦{fullShare} StableHlo.after (hostOps1 (F := F)) (Wexit m c) (Proc.devRef .tc main_cst))
          ∗ (((c : Thread nD τ).loc main_v2) ↦{fullShare} StableHlo.after (hostOps1 (F := F)) (Wexit m c) (Proc.devRef .tc main_v2))) := by
      rw [held_tail, show ([hostOps1] : List (List (HloOp τ sig (Elt F)))).flatten = hostOps1 from rfl, hkeep]
    have hret : iprop(|={Set.univ}=> Q' ⟨⟩)
        ⊢ wp frame (wpE (Pipeline.defs (fun p => (cfgs p).toPCfg) (defs₀ (F := F))) (Variants.lift Variants.none) (c : Thread nD τ) none) Set.univ (Pipeline.chain []) Q' := by
      rw [Pipeline.chain_nil, wp_pure]
    iintro ⟨Hk, Hb, ⟨Ha0, Ha1, Ha2, Ha3, Hv0⟩, Hv1, Hc, Hv2⟩
    iapply (Pipeline.wp_seqs_then (fun p => (cfgs p).toPCfg) defs₀ Variants.none c tailSet [] [hostOps1]
      (fun ops hops op hop => by
        obtain rfl := List.mem_singleton.mp hops
        rcases List.mem_cons.mp hop with rfl | hop
        · exact Finset.insert_subset (mem_tailSet (by decide)) (Finset.singleton_subset_iff.mpr (mem_tailSet (by decide)))
        rcases List.mem_cons.mp hop with rfl | hop
        · exact Finset.singleton_subset_iff.mpr (mem_tailSet (by decide))
        obtain rfl := List.mem_singleton.mp hop
        exact Finset.insert_subset (mem_tailSet (by decide)) (Finset.insert_subset (mem_tailSet (by decide)) (Finset.singleton_subset_iff.mpr (mem_tailSet (by decide)))))
      (fun ops hops op hop => by
        obtain rfl := List.mem_singleton.mp hops
        rcases List.mem_cons.mp hop with rfl | hop; · rfl
        rcases List.mem_cons.mp hop with rfl | hop; · rfl
        obtain rfl := List.mem_singleton.mp hop; rfl)
      (Wexit m c)) $$ [Hb Hv0 Hv1 Hc Hv2]
    · isplitl [Hb]; · iexact Hb
      rw [held_tail, hW0, hW1, hWc, hW2]
      isplitl [Hv0]; · iexact Hv0
      isplitl [Hv1]; · iexact Hv1
      isplitl [Hc]; · iexact Hc
      iexact Hv2
    iintro ⟨Hb, Hh⟩
    iapply hret
    imodintro
    iapply Hk
    ihave Hh' := (Entails.of_eq hpost) $$ Hh
    icases Hh' with ⟨Hv0, Hv1, Hc, Hv2⟩
    isplitl [Ha0 Ha1 Ha2 Ha3 Hv0]
    · isplitl [Ha0]; · iexact Ha0
      isplitl [Ha1]; · iexact Ha1
      isplitl [Ha2]; · iexact Ha2
      isplitl [Ha3]; · iexact Ha3
      iexact Hv0
    isplitl [Hv1]; · iexact Hv1
    isplitl [Hc]; · iexact Hc
    iexact Hv2
  case hY =>
    intro c s'
    iintro ⟨-, ⟨-, -, Hv2⟩, HSI⟩
    icombine HSI Hv2 gives %h
    imodintro
    isplitr
    · ipureintro; exact Buf.eq_of_forall_mem_univ h
    iexact HSI
  case hQ =>
    intro s h c
    refine ⟨(h c).2.2, ?_, ?_⟩
    · exact ((h c).1 0).trans ((dats m 0 c).arrAt_in 0 rfl _)
    · exact ((h c).1 2).trans ((dats m 0 c).arrAt_in 2 rfl _)

end Cert.Kernel.Tile

end
-- ==== Proof.KI.Setup.lean ====
/-
  What the per-point runs of the row-tile kernel are stated over.  The kernel walks 48 row tiles of 8 rows; at each
  tile it is handed the tile's 8 rows of X and of Z, the whole of X and of Z (the same two arrays again, through
  two further windows), and a one-element accumulator it resets at the first tile and adds to at every tile.
-/
import proofs.«136826_j5634997093005_1_alg».proof.Proof.Gen.KernelIdeal.Launch
import proofs.«136826_j5634997093005_1_alg».proof.Proof.Gen.KernelIdeal.Skeleton
import proofs.«136826_j5634997093005_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the kernel region is entered: as launched, the region being the first thing
    the program does. -/
abbrev V (c : Dev nD) (b : Ref sig .tc) : Buf (Elt F) ((c : Thread nD τ).loc b) := m ((c : Thread nD τ).loc b)

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's one branch: "this is the first tile". -/
abbrev isFirst (i : grid0.Coords) : Prop := (Scalar.cmpi .ne (Scalar.extui (Scalar.cmpi .eq (BitVec.ofNat 32 (i 0).val) 0#32)) 0#32) = 1#1
/-- It holds at tile 0 only. -/
theorem isFirst_iff : ∀ t : Fin cfg0.N, isFirst (grid0.coords t) ↔ t.val = 0 :=
  (by decide +kernel : ∀ t : Fin grid0.N, isFirst (grid0.coords t) ↔ t.val = 0)

/-- Each window's current staging memref at tile `t`, as the pipeline passes it, and its wholeness. -/
abbrev ms0 (t : Fin cfg0.N) : Memref sig .tc .vmem S8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch the body keeps its 8 × 384 × 384 table of sigmoids in. -/
abbrev msS : Memref sig .tc .vmem S8x384x384 .f32 := Memref.whole cc0_scratch0
abbrev hsS : (msS).IsWhole := Memref.isWhole_whole _

/-- One staging buffer of the accumulator window, through which its contents are stated. -/
abbrev VOacc : View sig .tc .vmem S1x1 .f32 := (Memref.whole cc0_stg4_0 : Memref sig .tc .vmem S1x1 .f32).view

end Cert.KernelIdeal.Tile

end
-- ==== Proof.KI.RunFirst.lean ====
/-
  The body at the first tile: the accumulator is reset to zero, the two tables of sigmoids are stored into the
  scratch and read back, and the tile's partial sum is added to the accumulator.
-/
import proofs.«136826_j5634997093005_1_alg».proof.Proof.KI.Setup

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the first tile: on whole staging memrefs holding the four input blocks, the accumulator's buffer at anything
    and the scratch at anything, the body runs to the end; the inputs are as they were, the accumulator's buffer holds
    the pieces its stores left (the witness), the scratch holds something. -/
noncomputable def runFirst (c : Dev nD) (i : grid0.Coords)
    (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole)
    (hc0 : isFirst i)
    (x0 : Vec F S8x128 .f32) (x1 : Vec F S384x128 .f32) (x2 : Vec F S8x32 .f32) (x3 : Vec F S384x32 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ d, owns (c : Thread nD τ) arg6 fullShare d)) -∗ K ⟨⟩))
          ⊢ wp frame (wpE (defs₀ (F := F)) Variants.none c none) E (cc0__trust_kernel i arg1 harg1 arg2 harg2 arg3 harg3 arg4 harg4 arg5 harg5 arg6 harg6) K } := by
  refine ⟨?_, fun E K => ?run⟩
  case run =>
    simp only [cc0__trust_kernel_eq_skeleton]; unfold cc0__trust_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _, _; isplitr
    swap; · iexact H5
    ipureintro; rfl

end Cert.KernelIdeal.Tile

end
-- ==== Proof.KI.RunLater.lean ====
/-
  The body at every tile after the first: the accumulator is not reset; the tile's partial sum is added to what the
  tile before left in it.
-/
import proofs.«136826_j5634997093005_1_alg».proof.Proof.KI.Setup

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a later tile: on whole staging memrefs holding the four input blocks, the accumulator's buffer at what the tile before left (\`acc\`)
    and the scratch at anything, the body runs to the end; the inputs are as they were, the accumulator's buffer holds
    the pieces its stores left (the witness), the scratch holds something. -/
noncomputable def runLater (c : Dev nD) (i : grid0.Coords)
    (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole)
    (hc0 : ¬isFirst i)
    (x0 : Vec F S8x128 .f32) (x1 : Vec F S384x128 .f32) (x2 : Vec F S8x32 .f32) (x3 : Vec F S384x32 .f32) (acc : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare acc ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ d, owns (c : Thread nD τ) arg6 fullShare d)) -∗ K ⟨⟩))
          ⊢ wp frame (wpE (defs₀ (F := F)) Variants.none c none) E (cc0__trust_kernel i arg1 harg1 arg2 harg2 arg3 harg3 arg4 harg4 arg5 harg5 arg6 harg6) K } := by
  refine ⟨?_, fun E K => ?run⟩
  case run =>
    simp only [cc0__trust_kernel_eq_skeleton]; unfold cc0__trust_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _, _; isplitr
    swap; · iexact H5
    ipureintro; rfl

end Cert.KernelIdeal.Tile

end
-- ==== Proof.KI.Points.lean ====
/-
  What the accumulator holds after each tile, the pipeline's proof data, and the body's obligation at every tile.
  The accumulator after tile 0 is what the first-tile run leaves over nothing; after tile n + 1 it is what the
  later-tile run leaves over the accumulator after tile n.  The four input windows hold their blocks throughout.
-/
import proofs.«136826_j5634997093005_1_alg».proof.Proof.KI.RunFirst
import proofs.«136826_j5634997093005_1_alg».proof.Proof.KI.RunLater

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Input window 0's current staging buffer holds its block at every tile, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every tile, fetched there or not, for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every tile, fetched there or not, for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every tile, fetched there or not, for any proof data
    whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The first tile's stores into the accumulator's buffer cover its one element. -/
theorem coverFirst (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : isFirst i)
    (x0 : Vec F S8x128 .f32) (x1 : Vec F S384x128 .f32) (x2 : Vec F S8x32 .f32) (x3 : Vec F S384x32 .f32) (y : S1x1.Idx) :
    ∃ pc ∈ (runFirst c i arg1 harg1 arg2 harg2 arg3 harg3 arg4 harg4 arg5 harg5 arg6 harg6 hc0 x0 x1 x2 x3).1, y ∈ pc.1.set :=
  View.cover_of_tiledL (runFirst c i arg1 harg1 arg2 harg2 arg3 harg3 arg4 harg4 arg5 harg5 arg6 harg6 hc0 x0 x1 x2 x3).1 S1x1.size (by sl_kernel_rfl) y

/-- What the first tile leaves in the accumulator's buffer: its pieces read back. -/
def accFirst (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : isFirst i)
    (x0 : Vec F S8x128 .f32) (x1 : Vec F S384x128 .f32) (x2 : Vec F S8x32 .f32) (x3 : Vec F S384x32 .f32) : Vec F S1x1 .f32 :=
  VOacc.read (Elt F) (VOacc.writes (Elt F) VOacc.junk (runFirst c i arg1 harg1 arg2 harg2 arg3 harg3 arg4 harg4 arg5 harg5 arg6 harg6 hc0 x0 x1 x2 x3).1)

/-- A later tile's store into the accumulator's buffer covers its one element. -/
theorem coverLater (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : ¬isFirst i)
    (x0 : Vec F S8x128 .f32) (x1 : Vec F S384x128 .f32) (x2 : Vec F S8x32 .f32) (x3 : Vec F S384x32 .f32) (acc : Vec F S1x1 .f32) (y : S1x1.Idx) :
    ∃ pc ∈ (runLater c i arg1 harg1 arg2 harg2 arg3 harg3 arg4 harg4 arg5 harg5 arg6 harg6 hc0 x0 x1 x2 x3 acc).1, y ∈ pc.1.set :=
  View.cover_of_tiledL (runLater c i arg1 harg1 arg2 harg2 arg3 harg3 arg4 harg4 arg5 harg5 arg6 harg6 hc0 x0 x1 x2 x3 acc).1 S1x1.size (by sl_kernel_rfl) y

/-- What a later tile leaves in the accumulator's buffer over `acc`: its pieces read back. -/
def accLater (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : ¬isFirst i)
    (x0 : Vec F S8x128 .f32) (x1 : Vec F S384x128 .f32) (x2 : Vec F S8x32 .f32) (x3 : Vec F S384x32 .f32) (acc : Vec F S1x1 .f32) : Vec F S1x1 .f32 :=
  VOacc.read (Elt F) (VOacc.writes (Elt F) VOacc.junk (runLater c i arg1 harg1 arg2 harg2 arg3 harg3 arg4 harg4 arg5 harg5 arg6 harg6 hc0 x0 x1 x2 x3 acc).1)

/-- THE ACCUMULATION: what the accumulator's staging buffer holds after the body at tile `n`. -/
def accAt (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) msS hsS ((isFirst_iff ⟨0, hn⟩).mpr rfl) (iblk m c 0 ⟨0, hn⟩) (iblk m c 1 ⟨0, hn⟩) (iblk m c 2 ⟨0, hn⟩) (iblk m c 3 ⟨0, hn⟩)
  | n + 1, hn => accLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) msS hsS (fun h => Nat.succ_ne_zero n ((isFirst_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_first (c : Dev nD) (t : Fin cfg0.N) (h0 : t.val = 0) :
    accAt m c t.val t.isLt = accFirst c (grid0.coords t) (ms0 t) (hs0 t) (ms1 t) (hs1 t) (ms2 t) (hs2 t) (ms3 t) (hs3 t) (ms4 t) (hs4 t) msS hsS ((isFirst_iff t).mpr h0) (iblk m c 0 t) (iblk m c 1 t) (iblk m c 2 t) (iblk m c 3 t) := by
  obtain ⟨n, hn⟩ := t
  cases n with
  | zero => exact rfl
  | succ n => exact absurd h0 (Nat.succ_ne_zero n)

theorem accAt_later (c : Dev nD) (t : Fin cfg0.N) (h0 : ¬t.val = 0) :
    accAt m c t.val t.isLt = accLater c (grid0.coords t) (ms0 t) (hs0 t) (ms1 t) (hs1 t) (ms2 t) (hs2 t) (ms3 t) (hs3 t) (ms4 t) (hs4 t) msS hsS (fun h => h0 ((isFirst_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact rfl

/-- The proof data of the one pipeline on core `c`: the arrays as the region finds them; after the body at tile `t`
    each input's buffer at its block and the accumulator's at `accAt`; the invariant says only that the scratch is
    there; nothing owed.  X and Z are each read through two windows: each of the two holds half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At a later tile the accumulator's buffer holds what the body left at the tile before: it is written back only
    after the last tile. -/
theorem before4_later (c : Dev nD) (t : Fin cfg0.N) (h0 : ¬t.val = 0) (d) :
    (dats m 0 c).before 4 t d = accAt m c (t.val - 1) (Nat.lt_of_le_of_lt (Nat.sub_le _ _) t.isLt) := by
  have hN : t.val < 48 := lt_of_lt_of_eq t.isLt (show cfg0.N = 48 from N_0)
  rw [Dat.before_out_kept _ 4 rfl t h0 (Bool.eq_false_iff.mpr fun h => by have := (flush0_4 _).mp h; dsimp only at this; omega)
    (fun _ => rfl) (fun _ _ => rfl)]
  dsimp only [dats]

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any tile: the inputs' memrefs hold their blocks; at the first tile the accumulator's buffer holds
    anything and the first-tile run applies, at a later one it holds what the tile before left and the later-tile run
    applies; the scratch is taken out of the invariant for the run and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.scopedRest spec0 c from rfl]
  have hS : (iprop(∃ f : Buf (Elt F) ((c : Thread nD τ).loc cc0_scratch0), ((c : Thread nD τ).loc cc0_scratch0) ↦{fullShare} f) : sProp 𝕄)
      = iprop(∃ X, owns (c : Thread nD τ) msS fullShare X) := (hsS.exists_owns_eq (c := (c : Thread nD τ)) fullShare).symm
  rw [scopedRest0_eq, hS]
  by_cases h0 : t.val = 0
  · rw [accAt_first m c t h0]
    unfold accFirst
    iintro ⟨⟨%dS, HS⟩, Ho, ⟨%d0, H0⟩, ⟨%d1, H1⟩, ⟨%d2, H2⟩, ⟨%d3, H3⟩, ⟨%d4, H4⟩⟩
    iapply ((runFirst c (grid0.coords t) _ _ _ _ _ _ _ _ _ _ msS hsS ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, ⟨%e4, H4⟩, ⟨%dS', HS⟩⟩
    isplitl [HS]; · iexists _; iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _ _)
  · rw [accAt_later m c t h0]
    simp only [before4_later m c t h0]
    unfold accLater
    iintro ⟨⟨%dS, HS⟩, Ho, ⟨%d0, H0⟩, ⟨%d1, H1⟩, ⟨%d2, H2⟩, ⟨%d3, H3⟩, ⟨%d4, H4⟩⟩
    iapply ((runLater c (grid0.coords t) _ _ _ _ _ _ _ _ _ _ msS hsS (fun h => h0 ((isFirst_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, ⟨%e4, H4⟩, ⟨%dS', HS⟩⟩
    isplitl [HS]; · iexists _; iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _ _ _)

/-- The library's body obligation, at every tile. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.KI.Launch.lean ====
/-
  The launch: from the body's obligation at every tile to the run of the whole program.  X and Z are each handed to
  the kernel through two windows, so each array's full share is dealt to its two windows half and half at the
  entry and collected again at the end; after the kernel region the program reshapes the accumulator and scales it,
  three host operations that touch the accumulator's array and three fresh buffers only.
-/
import proofs.«136826_j5634997093005_1_alg».proof.Proof.KI.Points

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the three host operations after the region touch: the accumulator's array and three fresh buffers. -/
abbrev tailRefs0 : Finset (Ref sig .tc) := {main_v0, main_v1, main_cst, main_v2}
abbrev tailSet : Finset (DevRef τ sig) := tailRefs0.map ⟨Proc.devRef (sig := sig) (.tc : Proc τ), Proc.devRef_injective _⟩

theorem mem_tailSet {r : Ref sig .tc} (h : r ∈ tailRefs0) : Proc.devRef (τ := τ) .tc r ∈ tailSet := Finset.mem_map_of_mem _ h

/-- Those four buffers held at contents `W`, one by one. -/
theorem held_tail (c : Dev nD) (W : Valuation τ sig (Elt F)) :
    (StableHlo.held ((c : Thread nD τ)) tailSet W : sProp 𝕄)
      = iprop((((c : Thread nD τ).loc main_v0) ↦{fullShare} W (Proc.devRef .tc main_v0))
          ∗ (((c : Thread nD τ).loc main_v1) ↦{fullShare} W (Proc.devRef .tc main_v1))
          ∗ (((c : Thread nD τ).loc main_cst) ↦{fullShare} W (Proc.devRef .tc main_cst))
          ∗ (((c : Thread nD τ).loc main_v2) ↦{fullShare} W (Proc.devRef .tc main_v2))) := by
  unfold StableHlo.held tailSet
  rw [bigSep_map]
  exact bigSep_eq_bigSepL_of_eq [main_v0, main_v1, main_cst, main_v2] (by decide) (by decide) _

/-- The core's buffers when the region is left: the accumulator's array at what the last write-back left, every
    other buffer as launched. -/
def Wexit (c : Dev nD) : Valuation τ sig (Elt F) :=
  Function.update (fun b => m (c, b)) (Proc.devRef .tc main_v0) ((dats m 0 c).arrAt 4 cfg0.N)

/-- The program's result buffer after the three host operations. -/
def resultAt (c : Dev nD) : Buf (Elt F) ((c.tc : Thread nD τ).loc main_v2) :=
  StableHlo.after (hostOps1 (F := F)) (Wexit m c) (Proc.devRef .tc main_v2)

set_option backward.isDefEq.respectTransparency.types false in
/-- THE RUN: every weakly fair execution of the program terminates, without a fault, with the result buffer at
    `resultAt` and both argument arrays as launched. -/
theorem run_main : θ_run defs (onTc (τ := τ) (main (F := F))) ⟨m, fun _ => 0, ρ⟩ (fun r => ∀ c : Dev nD,
      r.2.mem ((c.tc : Thread nD τ).loc main_v2) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  refine Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (fun c => (body_obligation m c).loose) block_pos0 arr_whole0 stage_whole0 (fun _ _ => rfl)
    (u₀ := Rounds.initOf (Pipeline.cells cfgs cellOf_inj) (Pipeline.launchToks cfgs cellOf_inj)) (hu₀ := ?hu0)
    (V := V m) (hmain := ?hmain) (hsplit := ?hsplit) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => iprop((((c : Thread nD τ).loc main_v1) ↦{fullShare} StableHlo.after (hostOps1 (F := F)) (Wexit m c) (Proc.devRef .tc main_v1))
        ∗ (((c : Thread nD τ).loc main_cst) ↦{fullShare} StableHlo.after (hostOps1 (F := F)) (Wexit m c) (Proc.devRef .tc main_cst))
        ∗ (((c : Thread nD τ).loc main_v2) ↦{fullShare} StableHlo.after (hostOps1 (F := F)) (Wexit m c) (Proc.devRef .tc main_v2))))
    (hX := ?hX) (hin := ?hin) (hout := ?hout) (htail := ?htail)
    (QY := fun c s => s.mem ((c.tc : Thread nD τ).loc main_v2) = resultAt m c) (hY := ?hY) (hQ := ?hQ)
  case hu0 => exact .rfl
  case hmain =>
    exact Pipeline.hmain_around cfgs 0 defs₀ Variants.none m main [] [hostOps1] (by trivial) (by trivial) (fun c => (main_chain c).trans rfl)
  case hsplit =>
    intro c
    have hL : (Pipeline.arrBufs (Ix := Unit) (Name := ℕ) (U := UR sig nD τ) (Lvl := ℕ) spec0 c (V m c) : sProp 𝕄)
        = iprop((((c : Thread nD τ).loc main_arg0) ↦{fullShare} V m c main_arg0) ∗ (((c : Thread nD τ).loc main_arg1) ↦{fullShare} V m c main_arg1)
            ∗ (((c : Thread nD τ).loc main_v0) ↦{fullShare} V m c main_v0)) := by
      unfold Pipeline.arrBufs
      exact bigSep_eq_bigSepL_of_eq [main_arg0, main_arg1, main_v0] (by decide) (by decide) _
    refine (Entails.of_eq hL).trans ?_
    unfold Pipeline.Dat.arrays
    rw [bigSep_W0]
    rw [(arr_whole0 0).set_eq_univ, (arr_whole0 2).set_eq_univ, (arr_whole0 4).set_eq_univ]
    iintro ⟨H0, H1, Hv⟩
    ihave H0' := (pointsTo_share (PosShare.mem_left_op_right fullShare)).1 $$ H0
    ihave H1' := (pointsTo_share (PosShare.mem_left_op_right fullShare)).1 $$ H1
    icases H0' with ⟨H0l, H0r⟩
    icases H1' with ⟨H1l, H1r⟩
    isplitl [H0l]; · iexact H0l
    isplitl [H0r]; · iexact H0r
    isplitl [H1l]; · iexact H1l
    isplitl [H1r]; · iexact H1r
    iexact Hv
  case hX =>
    intro c
    rw [Pipeline.unscopedRestP_none]
    iintro H
    isplitr; · iempintro
    iexact H
  case hin =>
    intro c
    show _ ⊢ Pipeline.scopedRest spec0 c
    iintro ⟨-, -, Hr⟩
    iexact Hr
  case hout =>
    intro c
    show Pipeline.scopedRest spec0 c ⊢ _
    iintro Hr
    isplitr; · iempintro
    iexact Hr
  case htail =>
    intro c Q'
    rw [unscopedRest0_eq]
    unfold Pipeline.Dat.arrays
    rw [bigSep_W0]
    rw [(arr_whole0 4).set_eq_univ]
    have hW0 : Wexit m c (Proc.devRef .tc main_v0) = (dats m 0 c).arrAt 4 cfg0.N := Function.update_self _ _ _
    have hW1 : Wexit m c (Proc.devRef .tc main_v1) = V m c main_v1 :=
      Function.update_of_ne (StableHlo.devRef_ne_of_ne (by decide)) _ _
    have hWc : Wexit m c (Proc.devRef .tc main_cst) = V m c main_cst :=
      Function.update_of_ne (StableHlo.devRef_ne_of_ne (by decide)) _ _
    have hW2 : Wexit m c (Proc.devRef .tc main_v2) = V m c main_v2 :=
      Function.update_of_ne (StableHlo.devRef_ne_of_ne (by decide)) _ _
    have hkeep : StableHlo.after (hostOps1 (F := F)) (Wexit m c) (Proc.devRef .tc main_v0) = (dats m 0 c).arrAt 4 cfg0.N :=
      (StableHlo.after_of_writes_sub (W := [main_v1, main_cst, main_v2]) hostOps1 (Wexit m c)
        ⟨by simp, by simp, by simp⟩ (by decide)).trans hW0
    have hpost : (StableHlo.held (c : Thread nD τ) tailSet (StableHlo.after ([hostOps1] : List (List (HloOp τ sig (Elt F)))).flatten (Wexit m c)) : sProp 𝕄)
        = iprop((((c : Thread nD τ).loc main_v0) ↦{fullShare} (dats m 0 c).arrAt 4 cfg0.N)
          ∗ (((c : Thread nD τ).loc main_v1) ↦{fullShare} StableHlo.after (hostOps1 (F := F)) (Wexit m c) (Proc.devRef .tc main_v1))
          ∗ (((c : Thread nD τ).loc main_cst) ↦{fullShare} StableHlo.after (hostOps1 (F := F)) (Wexit m c) (Proc.devRef .tc main_cst))
          ∗ (((c : Thread nD τ).loc main_v2) ↦{fullShare} StableHlo.after (hostOps1 (F := F)) (Wexit m c) (Proc.devRef .tc main_v2))) := by
      rw [held_tail, show ([hostOps1] : List (List (HloOp τ sig (Elt F)))).flatten = hostOps1 from rfl, hkeep]
    have hret : iprop(|={Set.univ}=> Q' ⟨⟩)
        ⊢ wp frame (wpE (Pipeline.defs (fun p => (cfgs p).toPCfg) (defs₀ (F := F))) (Variants.lift Variants.none) (c : Thread nD τ) none) Set.univ (Pipeline.chain []) Q' := by
      rw [Pipeline.chain_nil, wp_pure]
    iintro ⟨Hk, Hb, ⟨Ha0, Ha1, Ha2, Ha3, Hv0⟩, Hv1, Hc, Hv2⟩
    iapply (Pipeline.wp_seqs_then (fun p => (cfgs p).toPCfg) defs₀ Variants.none c tailSet [] [hostOps1]
      (fun ops hops op hop => by
        obtain rfl := List.mem_singleton.mp hops
        rcases List.mem_cons.mp hop with rfl | hop
        · exact Finset.insert_subset (mem_tailSet (by decide)) (Finset.singleton_subset_iff.mpr (mem_tailSet (by decide)))
        rcases List.mem_cons.mp hop with rfl | hop
        · exact Finset.singleton_subset_iff.mpr (mem_tailSet (by decide))
        obtain rfl := List.mem_singleton.mp hop
        exact Finset.insert_subset (mem_tailSet (by decide)) (Finset.insert_subset (mem_tailSet (by decide)) (Finset.singleton_subset_iff.mpr (mem_tailSet (by decide)))))
      (fun ops hops op hop => by
        obtain rfl := List.mem_singleton.mp hops
        rcases List.mem_cons.mp hop with rfl | hop; · rfl
        rcases List.mem_cons.mp hop with rfl | hop; · rfl
        obtain rfl := List.mem_singleton.mp hop; rfl)
      (Wexit m c)) $$ [Hb Hv0 Hv1 Hc Hv2]
    · isplitl [Hb]; · iexact Hb
      rw [held_tail, hW0, hW1, hWc, hW2]
      isplitl [Hv0]; · iexact Hv0
      isplitl [Hv1]; · iexact Hv1
      isplitl [Hc]; · iexact Hc
      iexact Hv2
    iintro ⟨Hb, Hh⟩
    iapply hret
    imodintro
    iapply Hk
    ihave Hh' := (Entails.of_eq hpost) $$ Hh
    icases Hh' with ⟨Hv0, Hv1, Hc, Hv2⟩
    isplitl [Ha0 Ha1 Ha2 Ha3 Hv0]
    · isplitl [Ha0]; · iexact Ha0
      isplitl [Ha1]; · iexact Ha1
      isplitl [Ha2]; · iexact Ha2
      isplitl [Ha3]; · iexact Ha3
      iexact Hv0
    isplitl [Hv1]; · iexact Hv1
    isplitl [Hc]; · iexact Hc
    iexact Hv2
  case hY =>
    intro c s'
    iintro ⟨-, ⟨-, -, Hv2⟩, HSI⟩
    icombine HSI Hv2 gives %h
    imodintro
    isplitr
    · ipureintro; exact Buf.eq_of_forall_mem_univ h
    iexact HSI
  case hQ =>
    intro s h c
    refine ⟨(h c).2.2, ?_, ?_⟩
    · exact ((h c).1 0).trans ((dats m 0 c).arrAt_in 0 rfl _)
    · exact ((h c).1 2).trans ((dats m 0 c).arrAt_in 2 rfl _)

end Cert.KernelIdeal.Tile

end
-- ==== Proof.KI.AccValue.lean ====
/-
  What the accumulator holds, as values.  One tile's update is one pure term `tileStep` of the tile's four input
  blocks and the accumulator before it: the table of X-distance sigmoids reduced to the soft ranks' hinge, the table
  of Z-distance sigmoids reduced to the clipped weight, their product summed over the tile's 8 rows and 384 points,
  added to the accumulator.  The first tile applies it to the zero block, every later tile to what the tile before
  left; the result array ends holding the accumulator after the last tile.
-/
import proofs.«136826_j5634997093005_1_alg».proof.Proof.KI.Points
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer access, spelt as the constant function. -/
theorem acc_hz2 : (![0, 0] : Fin 2 → Nat) = fun _ => 0 := funext fun a => by fin_cases a <;> rfl

/-- The tile's update of the accumulator, as one pure term of the four input blocks and the accumulator before. -/
def tileStep (x0 : Vec F S8x128 .f32) (x1 : Vec F S384x128 .f32) (x2 : Vec F S8x32 .f32) (x3 : Vec F S384x32 .f32) (acc : Vec F S1x1 .f32) : Vec F S1x1 .f32 :=
  k0_pay2 (k0_pay5 (k0_pay4 x0 x1)) (k0_pay1 (k0_pay6 x2 x3) (Scalar.ofBits .f32 0x3F000000#32)) acc

/-- A later tile: its one covering store's payload; the two tables of sigmoids it reads are what it stored into the
    scratch just before, the accumulator it reads is what the tile before left. -/
theorem accLater_eq (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : ¬isFirst i) (x0 : Vec F S8x128 .f32) (x1 : Vec F S384x128 .f32) (x2 : Vec F S8x32 .f32) (x3 : Vec F S384x32 .f32) (acc : Vec F S1x1 .f32) :
    accLater c i arg1 harg1 arg2 harg2 arg3 harg3 arg4 harg4 arg5 harg5 arg6 harg6 hc0 x0 x1 x2 x3 acc = tileStep x0 x1 x2 x3 acc := by
  unfold accLater
  rw [View.read_writes_eq_canon _ _ _ (coverLater c i arg1 harg1 arg2 harg2 arg3 harg3 arg4 harg4 arg5 harg5 arg6 harg6 hc0 x0 x1 x2 x3 acc)]
  unfold runLater
  dsimp only
  sl_unfold_words
  rw [View.canon_unit_zero acc_hz2]
  unfold tileStep
  simp only [View.readCov_cons_toLoadRect, View.readAt_eq_ld, harg1.read_unread, harg2.read_unread, harg3.read_unread,
    harg4.read_unread, harg5.read_unread, View.ld_unit_zero (S := S8x128) acc_hz2, View.ld_unit_zero (S := S384x128) acc_hz2,
    View.ld_unit_zero (S := S8x32) acc_hz2, View.ld_unit_zero (S := S384x32) acc_hz2, View.ld_unit_zero (S := S1x1) acc_hz2]

/-- The first tile: the reset then the update, which reads the reset back. -/
theorem accFirst_eq (c : Dev nD) (i : grid0.Coords) (arg1 : Memref sig .tc .vmem S8x128 .f32) (harg1 : arg1.IsWhole) (arg2 : Memref sig .tc .vmem S384x128 .f32) (harg2 : arg2.IsWhole)
    (arg3 : Memref sig .tc .vmem S8x32 .f32) (harg3 : arg3.IsWhole) (arg4 : Memref sig .tc .vmem S384x32 .f32) (harg4 : arg4.IsWhole)
    (arg5 : Memref sig .tc .vmem S1x1 .f32) (harg5 : arg5.IsWhole) (arg6 : Memref sig .tc .vmem S8x384x384 .f32) (harg6 : arg6.IsWhole) (hc0 : isFirst i) (x0 : Vec F S8x128 .f32) (x1 : Vec F S384x128 .f32) (x2 : Vec F S8x32 .f32) (x3 : Vec F S384x32 .f32) :
    accFirst c i arg1 harg1 arg2 harg2 arg3 harg3 arg4 harg4 arg5 harg5 arg6 harg6 hc0 x0 x1 x2 x3 = tileStep x0 x1 x2 x3 (k0_pay3 (F := F)) := by
  unfold accFirst
  rw [View.read_writes_eq_canon _ _ _ (coverFirst c i arg1 harg1 arg2 harg2 arg3 harg3 arg4 harg4 arg5 harg5 arg6 harg6 hc0 x0 x1 x2 x3)]
  unfold runFirst
  dsimp only
  sl_unfold_words
  rw [View.canon_cons_unit_zero (S := S1x1) acc_hz2]
  unfold tileStep
  simp only [View.readCov_cons_toLoadRect, View.readAt_eq_ld, harg1.read_unread, harg2.read_unread, harg3.read_unread,
    harg4.read_unread, View.ld_unit_zero (S := S8x128) acc_hz2, View.ld_unit_zero (S := S384x128) acc_hz2,
    View.ld_unit_zero (S := S8x32) acc_hz2, View.ld_unit_zero (S := S384x32) acc_hz2]

/-- The accumulator after tile 0: the update applied to the zero block. -/
theorem accAt_zero (c : Dev nD) (h : 0 < cfg0.N) :
    accAt m c 0 h = tileStep (iblk m c 0 ⟨0, h⟩) (iblk m c 1 ⟨0, h⟩) (iblk m c 2 ⟨0, h⟩) (iblk m c 3 ⟨0, h⟩) (k0_pay3 (F := F)) :=
  (accAt_first m c ⟨0, h⟩ rfl).trans
    (accFirst_eq c (grid0.coords ⟨0, h⟩) (ms0 ⟨0, h⟩) (hs0 ⟨0, h⟩) (ms1 ⟨0, h⟩) (hs1 ⟨0, h⟩) (ms2 ⟨0, h⟩) (hs2 ⟨0, h⟩)
      (ms3 ⟨0, h⟩) (hs3 ⟨0, h⟩) (ms4 ⟨0, h⟩) (hs4 ⟨0, h⟩) msS hsS ((isFirst_iff ⟨0, h⟩).mpr rfl)
      (iblk m c 0 ⟨0, h⟩) (iblk m c 1 ⟨0, h⟩) (iblk m c 2 ⟨0, h⟩) (iblk m c 3 ⟨0, h⟩))

/-- The accumulator after tile n + 1: the update applied to the accumulator after tile n. -/
theorem accAt_succ (c : Dev nD) (n : ℕ) (h : n + 1 < cfg0.N) :
    accAt m c (n + 1) h = tileStep (iblk m c 0 ⟨n + 1, h⟩) (iblk m c 1 ⟨n + 1, h⟩) (iblk m c 2 ⟨n + 1, h⟩) (iblk m c 3 ⟨n + 1, h⟩)
      (accAt m c n (Nat.lt_of_succ_lt h)) :=
  (accAt_later m c ⟨n + 1, h⟩ (Nat.succ_ne_zero n)).trans
    (accLater_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩)
      (ms3 ⟨n + 1, h⟩) (hs3 ⟨n + 1, h⟩) (ms4 ⟨n + 1, h⟩) (hs4 ⟨n + 1, h⟩) msS hsS (fun h' => Nat.succ_ne_zero n ((isFirst_iff ⟨n + 1, h⟩).mp h'))
      (iblk m c 0 ⟨n + 1, h⟩) (iblk m c 1 ⟨n + 1, h⟩) (iblk m c 2 ⟨n + 1, h⟩) (iblk m c 3 ⟨n + 1, h⟩) (accAt m c n (Nat.lt_of_succ_lt h)))

/-- The last tile. -/
abbrev accLastTile : Fin cfg0.N := ⟨47, by rw [show cfg0.N = 48 from N_0]; decide⟩

/-- The accumulator after the last tile, as contents of the result array: its one block is the whole array. -/
abbrev accResult (c : Dev nD) : Buf (Elt F) ((c : Thread nD τ).loc main_v0) := accAt m c 47 accLastTile.isLt

/-- The one write-back, at the last tile, writes it: block (0, 0) of the 1×1 array read at zero offsets is the array. -/
theorem accFlushed_eq (c : Dev nD) (t : Fin cfg0.N) (hf : (cfg0.win 4).flush t = true) :
    (dats m 0 c).flushed 4 t = ((cfg0.win 4).blk t).view.read (Elt F) (accResult m c) := by
  have hN : cfg0.N = 48 := N_0
  have h47 : t.val = 47 := by have := (flush0_4 t).mp hf; have := t.isLt; omega
  obtain rfl : t = accLastTile := Fin.ext h47
  show (cfg0.win 4).cut (grid0.coords accLastTile) ((dats m 0 c).after 4 accLastTile) = _
  rw [after4]
  have hz' : (fun a => win0_4.index accLastTile a * main_v0.ty.shape.size a) = fun _ => 0 := funext fun a => by fin_cases a <;> decide
  exact (Memref.read_access_unit_zero (Elt F) main_v0 hz' (fun a => by rw [congrFun hz' a]; simp) (accResult m c)).symm

/-- The accumulator's array after the run is the accumulator after the last tile. -/
theorem final_acc (c : Dev nD) : (dats m 0 c).arrAt 4 cfg0.N = accAt m c 47 (by rw [show cfg0.N = 48 from N_0]; decide) :=
  (dats m 0 c).arrAt_eq_of_cover 4 (accResult m c) (accFlushed_eq m c) fun i =>
    ⟨accLastTile, (flush0_4 accLastTile).mpr rfl, by
      show i ∈ ((View.whole main_v0).slice (win0_4.rect accLastTile)).set
      rw [View.set_slice_whole, Rect.mem_set_unit]
      intro a
      have h0 : (i 0 : Nat) < 1 := (i 0).isLt
      have h1 : (i 1 : Nat) < 1 := (i 1).isLt
      match a with
      | ⟨0, _⟩ => show win0_4.index accLastTile 0 * win0_4.size 0 ≤ (i 0 : Nat) ∧ (i 0 : Nat) < win0_4.index accLastTile 0 * win0_4.size 0 + win0_4.xsize (grid0.coords accLastTile) 0
                  rw [show win0_4.index accLastTile 0 * win0_4.size 0 = 0 from by decide +kernel, show win0_4.xsize (grid0.coords accLastTile) 0 = 1 from by decide +kernel]; omega
      | ⟨1, _⟩ => show win0_4.index accLastTile 1 * win0_4.size 1 ≤ (i 1 : Nat) ∧ (i 1 : Nat) < win0_4.index accLastTile 1 * win0_4.size 1 + win0_4.xsize (grid0.coords accLastTile) 1
                  rw [show win0_4.index accLastTile 1 * win0_4.size 1 = 0 from by decide +kernel, show win0_4.xsize (grid0.coords accLastTile) 1 = 1 from by decide +kernel]; omega⟩

end Cert.KernelIdeal.Tile

end
-- ==== Proof.Spec.lean ====
/-
  The quantity both programs compute, row by row, on the extended reals.

  For a row `u` and the rows `A b` of a table, `dst u (A b)` is the Euclidean distance (the squared distance
  `|u|² + |A b|² − 2 u·A b` clipped at zero, its root taken only above the threshold 1e-12, zero below it);
  `rank u A a = 1 + ∑ b, σ((dst u (A b) − dst u (A a)) / ½)` is the soft rank of point `a` among the row's distances;
  the row's loss at `a` is `relu(rank − 5)` of the X-distances times `1 − clip((6 − rank) / 5, 0, 1)` of the
  Z-distances.  Every operation is the instance's own, so that either program's text read at an index is this text.
-/
import Idealize.ShloMosaic.PureOps.Ideal
import Idealize.ShloMosaic.PureOps.Ideal.Laws
import Mathlib.Algebra.BigOperators.Fin
import Mathlib.Logic.Equiv.Fin.Basic

noncomputable section

namespace Cert.Spec

open Idealize.ShloMosaic

/-- An extended real. -/
abbrev E : Type := Ideal .f32

/-- A float literal by its binary word. -/
abbrev lit (b : BitVec 32) : E := FloatOps.ofBits (F := Ideal) .f32 b

/-- The squared distance between two rows, clipped at zero. -/
def sqd {d : ℕ} (u v : Fin d → E) : E :=
  FloatOps.maximumf
    (FloatOps.subf (FloatOps.addf (∑ k, FloatOps.mulf (u k) (u k)) (∑ k, FloatOps.mulf (v k) (v k)))
      (FloatOps.mulf (lit 0x40000000#32) (∑ k, u k * v k)))
    (lit 0x00000000#32)

/-- The distance between two rows: the root above the threshold, zero at or below it. -/
def dst {d : ℕ} (u v : Fin d → E) : E :=
  Scalar.select (FloatOps.cmpf .ogt (sqd u v) (lit 0x2B8CBCCC#32))
    (FloatOps.sqrt (Scalar.select (FloatOps.cmpf .ogt (sqd u v) (lit 0x2B8CBCCC#32)) (sqd u v) (lit 0x3F800000#32)))
    (lit 0x00000000#32)

/-- The soft rank of point `a` among the distances from the row `u` to the rows of `A`. -/
def rank {d : ℕ} (u : Fin d → E) (A : Fin 384 → Fin d → E) (a : Fin 384) : E :=
  FloatOps.addf (lit 0x3F800000#32)
    (∑ b : Fin 384, FloatOps.logistic (FloatOps.divf (FloatOps.subf (dst u (A b)) (dst u (A a))) (lit 0x3F000000#32)))

/-- One row's loss at point `a`: the row `u` of X against all of X, the row `w` of Z against all of Z. -/
def lossRow (u : Fin 128 → E) (X : Fin 384 → Fin 128 → E) (w : Fin 32 → E) (Z : Fin 384 → Fin 32 → E) (a : Fin 384) : E :=
  FloatOps.mulf
    (FloatOps.maximumf (FloatOps.subf (rank u X a) (lit 0x40A00000#32)) (lit 0x00000000#32))
    (FloatOps.subf (lit 0x3F800000#32)
      (FloatOps.minimumf (lit 0x3F800000#32)
        (FloatOps.maximumf (lit 0x00000000#32)
          (FloatOps.divf (FloatOps.subf (lit 0x40C00000#32) (rank w Z a)) (lit 0x40A00000#32)))))

/-- The whole sum: every row against every point. -/
def total (X : Fin 384 → Fin 128 → E) (Z : Fin 384 → Fin 32 → E) : E :=
  ∑ i : Fin 384, ∑ a : Fin 384, lossRow (X i) X (Z i) Z a

/-- The sum of the 8 rows of row tile `t`. -/
def tileSum (X : Fin 384 → Fin 128 → E) (Z : Fin 384 → Fin 32 → E) (t : Fin 48) : E :=
  ∑ r : Fin 8, ∑ a : Fin 384, lossRow (X ⟨8 * t.val + r.val, by omega⟩) X (Z ⟨8 * t.val + r.val, by omega⟩) Z a

/-- Row `8 t + r` runs over all 384 rows as `t` runs over the 48 tiles and `r` over a tile's 8 rows. -/
theorem sum_fin_tiles {M : Type*} [AddCommMonoid M] (f : Fin 384 → M) :
    ∑ t : Fin 48, ∑ r : Fin 8, f ⟨8 * t.val + r.val, by omega⟩ = ∑ i, f i := by
  rw [← Fintype.sum_prod_type']
  refine Fintype.sum_equiv (finProdFinEquiv (m := 48) (n := 8)) _ _ (fun x => ?_)
  refine congrArg f (Fin.ext ?_)
  simp only [finProdFinEquiv_apply_val]
  omega

/-- The 384 rows are the 48 tiles of 8 rows: summing tile by tile is summing row by row. -/
theorem sum_tiles (X : Fin 384 → Fin 128 → E) (Z : Fin 384 → Fin 32 → E) :
    ∑ t : Fin 48, tileSum X Z t = total X Z :=
  sum_fin_tiles fun i => ∑ a : Fin 384, lossRow (X i) X (Z i) Z a

end Cert.Spec

end
-- ==== Proof.KI.Blocks.lean ====
/-
  The kernel's input blocks read as rows of X and Z, and the accumulated sum, on the extended reals.
  Window 0 hands the body rows 8t .. 8t+7 of X at tile t, window 1 all of X; windows 2 and 3 the same of Z.
  The accumulator after the last tile is the sum over the 48 tiles of each tile's 8 rows' losses: the whole sum.
-/
import proofs.«136826_j5634997093005_1_alg».proof.Proof.KI.Points
import proofs.«136826_j5634997093005_1_alg».proof.Proof.Spec
import Idealize.ShloMosaic.Lib.ValueIdx

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Spec

variable (m : (ℓ : Loc nD τ sig) → Buf (Elt Ideal) ℓ)

/-- X and Z as tables of rows -/
abbrev Xrows (c : Dev nD) : Fin 384 → Fin 128 → E := fun i k => m ((c : Thread nD τ).loc main_arg0) (ix2 i k)
abbrev Zrows (c : Dev nD) : Fin 384 → Fin 32 → E := fun i k => m ((c : Thread nD τ).loc main_arg1) (ix2 i k)

/-- Window 0's block index at tile t is (t, 0); window 1's is (0, 0); likewise windows 2 and 3. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

theorem iblk0_apply (c : Dev nD) (t : Fin cfg0.N) (r : Fin 8) (k : Fin 128) :
    (iblk m c 0 t : Vec Ideal S8x128 .f32) (ix2 r k)
      = Xrows m c ⟨8 * t.val + r.val, by have := lt_of_lt_of_eq t.isLt (show cfg0.N = 48 from N_0); omega⟩ k := by
  unfold iblk
  rw [View.read_apply]
  show V m c main_arg0 _ = m ((c : Thread nD τ).loc main_arg0) _
  unfold V
  congr 1
  funext a
  apply Fin.ext
  match a with
  | ⟨0, _⟩ => show win0_0.index t 0 * 8 + 1 * r.val = 8 * t.val + r.val; rw [(index0 t).1]; omega
  | ⟨1, _⟩ => show win0_0.index t 1 * 128 + 1 * k.val = k.val; rw [(index0 t).2]; omega

theorem iblk1_apply (c : Dev nD) (t : Fin cfg0.N) (i : Fin 384) (k : Fin 128) :
    (iblk m c 1 t : Vec Ideal S384x128 .f32) (ix2 i k) = Xrows m c i k := by
  unfold iblk
  rw [View.read_apply]
  show V m c main_arg0 _ = m ((c : Thread nD τ).loc main_arg0) _
  unfold V
  congr 1
  funext a
  apply Fin.ext
  match a with
  | ⟨0, _⟩ => show win0_1.index t 0 * 384 + 1 * i.val = i.val; rw [(index1 t).1]; omega
  | ⟨1, _⟩ => show win0_1.index t 1 * 128 + 1 * k.val = k.val; rw [(index1 t).2]; omega

theorem iblk2_apply (c : Dev nD) (t : Fin cfg0.N) (r : Fin 8) (k : Fin 32) :
    (iblk m c 2 t : Vec Ideal S8x32 .f32) (ix2 r k)
      = Zrows m c ⟨8 * t.val + r.val, by have := lt_of_lt_of_eq t.isLt (show cfg0.N = 48 from N_0); omega⟩ k := by
  unfold iblk
  rw [View.read_apply]
  show V m c main_arg1 _ = m ((c : Thread nD τ).loc main_arg1) _
  unfold V
  congr 1
  funext a
  apply Fin.ext
  match a with
  | ⟨0, _⟩ => show win0_2.index t 0 * 8 + 1 * r.val = 8 * t.val + r.val; rw [(index2 t).1]; omega
  | ⟨1, _⟩ => show win0_2.index t 1 * 32 + 1 * k.val = k.val; rw [(index2 t).2]; omega

theorem iblk3_apply (c : Dev nD) (t : Fin cfg0.N) (i : Fin 384) (k : Fin 32) :
    (iblk m c 3 t : Vec Ideal S384x32 .f32) (ix2 i k) = Zrows m c i k := by
  unfold iblk
  rw [View.read_apply]
  show V m c main_arg1 _ = m ((c : Thread nD τ).loc main_arg1) _
  unfold V
  congr 1
  funext a
  apply Fin.ext
  match a with
  | ⟨0, _⟩ => show win0_3.index t 0 * 384 + 1 * i.val = i.val; rw [(index3 t).1]; omega
  | ⟨1, _⟩ => show win0_3.index t 1 * 32 + 1 * k.val = k.val; rw [(index3 t).2]; omega

/-- The 8 rows of tile t, each against every point, read off the four blocks: the tile's sum. -/
theorem tile_inner (c : Dev nD) (t : Fin cfg0.N) :
    (∑ r : Fin 8, ∑ a : Fin 384,
      lossRow (fun k => (iblk m c 0 t : Vec Ideal S8x128 .f32) (ix2 r k)) (fun i k => (iblk m c 1 t : Vec Ideal S384x128 .f32) (ix2 i k))
        (fun k => (iblk m c 2 t : Vec Ideal S8x32 .f32) (ix2 r k)) (fun i k => (iblk m c 3 t : Vec Ideal S384x32 .f32) (ix2 i k)) a)
      = tileSum (Xrows m c) (Zrows m c) ⟨t.val, lt_of_lt_of_eq t.isLt (show cfg0.N = 48 from N_0)⟩ := by
  unfold tileSum
  refine Finset.sum_congr rfl fun r _ => Finset.sum_congr rfl fun a _ => ?_
  have h0 : (fun k => (iblk m c 0 t : Vec Ideal S8x128 .f32) (ix2 r k)) = Xrows m c ⟨8 * t.val + r.val, by have := lt_of_lt_of_eq t.isLt (show cfg0.N = 48 from N_0); omega⟩ :=
    funext fun k => iblk0_apply m c t r k
  have h1 : (fun i k => (iblk m c 1 t : Vec Ideal S384x128 .f32) (ix2 i k)) = Xrows m c :=
    funext fun i => funext fun k => iblk1_apply m c t i k
  have h2 : (fun k => (iblk m c 2 t : Vec Ideal S8x32 .f32) (ix2 r k)) = Zrows m c ⟨8 * t.val + r.val, by have := lt_of_lt_of_eq t.isLt (show cfg0.N = 48 from N_0); omega⟩ :=
    funext fun k => iblk2_apply m c t r k
  have h3 : (fun i k => (iblk m c 3 t : Vec Ideal S384x32 .f32) (ix2 i k)) = Zrows m c :=
    funext fun i => funext fun k => iblk3_apply m c t i k
  rw [h0, h1, h2, h3]

/-- THE ACCUMULATED SUM: a step that adds the tile's 8 rows' losses to the accumulator, started from zero and run
    over the 48 tiles in order, leaves the whole sum. -/
theorem acc_sum (c : Dev nD)
    (step : Vec Ideal S8x128 .f32 → Vec Ideal S384x128 .f32 → Vec Ideal S8x32 .f32 → Vec Ideal S384x32 .f32 → Vec Ideal S1x1 .f32 → Vec Ideal S1x1 .f32)
    (z : Vec Ideal S1x1 .f32) (hz : ∀ j, z j = 0)
    (hstep : ∀ x0 x1 x2 x3 acc j, step x0 x1 x2 x3 acc j = acc j + ∑ r : Fin 8, ∑ a : Fin 384,
        lossRow (fun k => x0 (ix2 r k)) (fun i k => x1 (ix2 i k)) (fun k => x2 (ix2 r k)) (fun i k => x3 (ix2 i k)) a)
    (A : (n : ℕ) → n < cfg0.N → Vec Ideal S1x1 .f32)
    (hA0 : ∀ h, A 0 h = step (iblk m c 0 ⟨0, h⟩) (iblk m c 1 ⟨0, h⟩) (iblk m c 2 ⟨0, h⟩) (iblk m c 3 ⟨0, h⟩) z)
    (hAs : ∀ n h, A (n + 1) h = step (iblk m c 0 ⟨n + 1, h⟩) (iblk m c 1 ⟨n + 1, h⟩) (iblk m c 2 ⟨n + 1, h⟩) (iblk m c 3 ⟨n + 1, h⟩) (A n (Nat.lt_of_succ_lt h)))
    (j : S1x1.Idx) :
    A 47 (by rw [show cfg0.N = 48 from N_0]; decide) j = total (Xrows m c) (Zrows m c) := by
  have key : ∀ (n : ℕ) (h : n < cfg0.N), A n h j
      = ∑ t : Fin (n + 1), tileSum (Xrows m c) (Zrows m c)
          ⟨t.val, by have := lt_of_lt_of_eq h (show cfg0.N = 48 from N_0); have := t.isLt; omega⟩ := by
    intro n
    induction n with
    | zero =>
      intro h
      rw [hA0 h, hstep, hz, zero_add, tile_inner, Fin.sum_univ_one]
      rfl
    | succ n ih =>
      intro h
      rw [hAs n h, hstep, ih (Nat.lt_of_succ_lt h), tile_inner]
      refine Eq.trans ?_ (Fin.sum_univ_castSucc _).symm
      rfl
  rw [key 47, ← sum_tiles]

end Cert.KernelIdeal.Tile

end
-- ==== Proof.KI.TileValue.lean ====
/-
  The kernel body's arithmetic on one row tile, read index by index.

  For the 8 rows `x0` of a row tile of X against all 384 rows `x1` of X (and likewise the 8 rows `x2` against the 384
  rows `x3` of Z), the body forms the table of Euclidean distances `D (r, b)` between row `r` of the tile and row `b`:
  the sums of squares of the rows, a product of the tile with the transposed table for the cross terms, the squared
  distance clipped at zero, and its root taken only above the threshold. From it, the table of sigmoids of
  `(D (r, b) - D (r, a)) / ½` at `(r, a, b)`, whose sum over `b`, plus one, is the soft rank of point `a` in row `r`.
  The tile adds to the accumulator the sum, over its 8 rows and the 384 points, of relu (rank − 5) of the X distances
  times one minus the clipped fifth of (6 − rank) of the Z distances: the specification's `lossRow`.

  The layout operations (column and row shape casts, broadcasts along a unit axis, a transpose) and the three kinds of
  non-pointwise arithmetic (a sum along one axis, a product contracting one axis) are each read at explicit coordinates
  by one small lemma; the tables are stated once for rows of any length `d` and used at `d = 128` and `d = 32`.
-/
import proofs.«136826_j5634997093005_1_alg».proof.Proof.Spec
import proofs.«136826_j5634997093005_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx Cert.Spec
open scoped BigOperators

/-! ## Layout operations at explicit coordinates -/

section Layout
variable {α : Type}

/-- A vector `[a]` cast to a column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]` reads, at `(u, i)`, the operand at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A matrix `[a, b]` cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A matrix `[a, b]` cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, 1]` broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## Lane sums at explicit coordinates -/

/-- The sum of a matrix along its rows' entries: at `r`, the sum over `k` of the entry `(r, k)`. -/
theorem sum_axis1_apply {n d : ℕ} (v : FVec Ideal ⟨2, ![n, d]⟩ .f32)
    (h : (⟨2, ![n, d]⟩ : Shape).Reduces [1] ⟨1, ![n]⟩) (hφ : FKind.Formats .f32)
    (hacc : (0x00000000#32 : BitVec 32) = FKind.add.neutral .f32 hφ) (r : Fin n) :
    multiReduction (F := Ideal) .add [1] ⟨1, ![n]⟩ v 0x00000000#32 h hφ hacc (ix1 r) = ∑ k : Fin d, v (ix2 r k) := by
  refine (Ideal.multiReduction_add_single v _ h hφ hacc (ix1 r)).trans ?_
  refine Finset.sum_congr rfl fun k _ => congrArg v ?_
  funext c
  refine Fin.ext ?_
  match c with
  | ⟨0, _⟩ => rfl
  | ⟨1, _⟩ => rfl

/-- The sum of a matrix down its columns: at `u`, the sum over `r` of the entry `(r, u)`. -/
theorem sum_axis0_apply {n d : ℕ} (v : FVec Ideal ⟨2, ![n, d]⟩ .f32)
    (h : (⟨2, ![n, d]⟩ : Shape).Reduces [0] ⟨1, ![d]⟩) (hφ : FKind.Formats .f32)
    (hacc : (0x00000000#32 : BitVec 32) = FKind.add.neutral .f32 hφ) (u : Fin d) :
    multiReduction (F := Ideal) .add [0] ⟨1, ![d]⟩ v 0x00000000#32 h hφ hacc (ix1 u) = ∑ r : Fin n, v (ix2 r u) := by
  refine (Ideal.multiReduction_add_single v _ h hφ hacc (ix1 u)).trans ?_
  refine Finset.sum_congr rfl fun k _ => congrArg v ?_
  funext c
  refine Fin.ext ?_
  match c with
  | ⟨0, _⟩ => rfl
  | ⟨1, _⟩ => rfl

/-- The sum of a rank-3 array along its last axis: at `(r, a)`, the sum over `b` of the entry `(r, a, b)`. -/
theorem sum_axis2_apply {n m d : ℕ} (v : FVec Ideal ⟨3, ![n, m, d]⟩ .f32)
    (h : (⟨3, ![n, m, d]⟩ : Shape).Reduces [2] ⟨2, ![n, m]⟩) (hφ : FKind.Formats .f32)
    (hacc : (0x00000000#32 : BitVec 32) = FKind.add.neutral .f32 hφ) (r : Fin n) (a : Fin m) :
    multiReduction (F := Ideal) .add [2] ⟨2, ![n, m]⟩ v 0x00000000#32 h hφ hacc (ix2 r a) = ∑ b : Fin d, v (ix3 r a b) := by
  refine (Ideal.multiReduction_add_single v _ h hφ hacc (ix2 r a)).trans ?_
  refine Finset.sum_congr rfl fun k _ => congrArg v ?_
  funext c
  refine Fin.ext ?_
  match c with
  | ⟨0, _⟩ => rfl
  | ⟨1, _⟩ => rfl
  | ⟨2, _⟩ => rfl

/-! ## The two products at explicit coordinates

Each product contracts the second axis of its left operand with the first axis of its right operand. The four
coordinate facts of each record are kept apart and stated at the literal axes; the product lemma re-indexes the
contraction's sum through the one contracted coordinate. -/

/-- X: on its non-contracting axis the left index is the output row. -/
theorem lhs_X_0 (i : S8x384.Idx) (q : dot_S8x128_S128x384_S8x384_1_0_0_1_n_n.contr.Idx) :
    (dot_S8x128_S128x384_S8x384_1_0_0_1_n_n.lhsIdx i q 0).val = (i 0).val := by
  unfold DotDims.lhsIdx
  rw [dif_neg (show ¬(0 : Fin S8x128.rank) ∈ dot_S8x128_S128x384_S8x384_1_0_0_1_n_n.lhsBatch by decide), dif_pos (show (0 : Fin S8x128.rank) ∈ dot_S8x128_S128x384_S8x384_1_0_0_1_n_n.lhsNonContracting by decide)]
  rfl
/-- X: on its contracting axis the left index is the contraction coordinate. -/
theorem lhs_X_1 (i : S8x384.Idx) (q : dot_S8x128_S128x384_S8x384_1_0_0_1_n_n.contr.Idx) :
    (dot_S8x128_S128x384_S8x384_1_0_0_1_n_n.lhsIdx i q 1).val = (q ⟨0, by decide⟩).val :=
  dot_S8x128_S128x384_S8x384_1_0_0_1_n_n.lhsIdx_val_of_single rfl i q
/-- X: on its contracting axis the right index is the contraction coordinate. -/
theorem rhs_X_0 (i : S8x384.Idx) (q : dot_S8x128_S128x384_S8x384_1_0_0_1_n_n.contr.Idx) :
    (dot_S8x128_S128x384_S8x384_1_0_0_1_n_n.rhsIdx i q 0).val = (q ⟨0, by decide⟩).val :=
  dot_S8x128_S128x384_S8x384_1_0_0_1_n_n.rhsIdx_val_of_single rfl i q
/-- X: on its non-contracting axis the right index is the output column. -/
theorem rhs_X_1 (i : S8x384.Idx) (q : dot_S8x128_S128x384_S8x384_1_0_0_1_n_n.contr.Idx) :
    (dot_S8x128_S128x384_S8x384_1_0_0_1_n_n.rhsIdx i q 1).val = (i 1).val := by
  unfold DotDims.rhsIdx
  rw [dif_neg (show ¬(1 : Fin S128x384.rank) ∈ dot_S8x128_S128x384_S8x384_1_0_0_1_n_n.rhsBatch by decide), dif_pos (show (1 : Fin S128x384.rank) ∈ dot_S8x128_S128x384_S8x384_1_0_0_1_n_n.rhsNonContracting by decide)]
  rfl

/-- X: the product into the zero accumulator, at `(r, b)`, is the sum over `k` of `x (r, k) * y (k, b)`. -/
theorem matmul_X_apply (x : FVec Ideal S8x128 .f32) (y : FVec Ideal S128x384 .f32) (r : Fin 8) (b : Fin 384) :
    matmul (F := Ideal) dot_S8x128_S128x384_S8x384_1_0_0_1_n_n (some .fp32) x y (constant (F := Ideal) S8x384 .f32 0x00000000#32) (ix2 r b)
      = ∑ k : Fin 128, x (ix2 r k) * y (ix2 k b) := by
  simp only [matmul]
  rw [Ideal.matmul_constant_zero_apply, ← Equiv.sum_comp (contrEquiv1 dot_S8x128_S128x384_S8x384_1_0_0_1_n_n 128 rfl rfl).symm]
  refine Finset.sum_congr rfl fun k _ => ?_
  have hk := contrEquiv1_symm_val dot_S8x128_S128x384_S8x384_1_0_0_1_n_n 128 rfl rfl k
  have el : dot_S8x128_S128x384_S8x384_1_0_0_1_n_n.lhsIdx (ix2 r b) ((contrEquiv1 dot_S8x128_S128x384_S8x384_1_0_0_1_n_n 128 rfl rfl).symm k) = ix2 r k := funext fun a => Fin.ext (by
    match a with
    | ⟨0, _⟩ => exact lhs_X_0 _ _
    | ⟨1, _⟩ => exact (lhs_X_1 _ _).trans hk)
  have er : dot_S8x128_S128x384_S8x384_1_0_0_1_n_n.rhsIdx (ix2 r b) ((contrEquiv1 dot_S8x128_S128x384_S8x384_1_0_0_1_n_n 128 rfl rfl).symm k) = ix2 k b := funext fun a => Fin.ext (by
    match a with
    | ⟨0, _⟩ => exact (rhs_X_0 _ _).trans hk
    | ⟨1, _⟩ => exact rhs_X_1 _ _)
  rw [el, er]

/-- Z: on its non-contracting axis the left index is the output row. -/
theorem lhs_Z_0 (i : S8x384.Idx) (q : dot_S8x32_S32x384_S8x384_1_0_0_1_n_n.contr.Idx) :
    (dot_S8x32_S32x384_S8x384_1_0_0_1_n_n.lhsIdx i q 0).val = (i 0).val := by
  unfold DotDims.lhsIdx
  rw [dif_neg (show ¬(0 : Fin S8x32.rank) ∈ dot_S8x32_S32x384_S8x384_1_0_0_1_n_n.lhsBatch by decide), dif_pos (show (0 : Fin S8x32.rank) ∈ dot_S8x32_S32x384_S8x384_1_0_0_1_n_n.lhsNonContracting by decide)]
  rfl
/-- Z: on its contracting axis the left index is the contraction coordinate. -/
theorem lhs_Z_1 (i : S8x384.Idx) (q : dot_S8x32_S32x384_S8x384_1_0_0_1_n_n.contr.Idx) :
    (dot_S8x32_S32x384_S8x384_1_0_0_1_n_n.lhsIdx i q 1).val = (q ⟨0, by decide⟩).val :=
  dot_S8x32_S32x384_S8x384_1_0_0_1_n_n.lhsIdx_val_of_single rfl i q
/-- Z: on its contracting axis the right index is the contraction coordinate. -/
theorem rhs_Z_0 (i : S8x384.Idx) (q : dot_S8x32_S32x384_S8x384_1_0_0_1_n_n.contr.Idx) :
    (dot_S8x32_S32x384_S8x384_1_0_0_1_n_n.rhsIdx i q 0).val = (q ⟨0, by decide⟩).val :=
  dot_S8x32_S32x384_S8x384_1_0_0_1_n_n.rhsIdx_val_of_single rfl i q
/-- Z: on its non-contracting axis the right index is the output column. -/
theorem rhs_Z_1 (i : S8x384.Idx) (q : dot_S8x32_S32x384_S8x384_1_0_0_1_n_n.contr.Idx) :
    (dot_S8x32_S32x384_S8x384_1_0_0_1_n_n.rhsIdx i q 1).val = (i 1).val := by
  unfold DotDims.rhsIdx
  rw [dif_neg (show ¬(1 : Fin S32x384.rank) ∈ dot_S8x32_S32x384_S8x384_1_0_0_1_n_n.rhsBatch by decide), dif_pos (show (1 : Fin S32x384.rank) ∈ dot_S8x32_S32x384_S8x384_1_0_0_1_n_n.rhsNonContracting by decide)]
  rfl

/-- Z: the product into the zero accumulator, at `(r, b)`, is the sum over `k` of `x (r, k) * y (k, b)`. -/
theorem matmul_Z_apply (x : FVec Ideal S8x32 .f32) (y : FVec Ideal S32x384 .f32) (r : Fin 8) (b : Fin 384) :
    matmul (F := Ideal) dot_S8x32_S32x384_S8x384_1_0_0_1_n_n (some .fp32) x y (constant (F := Ideal) S8x384 .f32 0x00000000#32) (ix2 r b)
      = ∑ k : Fin 32, x (ix2 r k) * y (ix2 k b) := by
  simp only [matmul]
  rw [Ideal.matmul_constant_zero_apply, ← Equiv.sum_comp (contrEquiv1 dot_S8x32_S32x384_S8x384_1_0_0_1_n_n 32 rfl rfl).symm]
  refine Finset.sum_congr rfl fun k _ => ?_
  have hk := contrEquiv1_symm_val dot_S8x32_S32x384_S8x384_1_0_0_1_n_n 32 rfl rfl k
  have el : dot_S8x32_S32x384_S8x384_1_0_0_1_n_n.lhsIdx (ix2 r b) ((contrEquiv1 dot_S8x32_S32x384_S8x384_1_0_0_1_n_n 32 rfl rfl).symm k) = ix2 r k := funext fun a => Fin.ext (by
    match a with
    | ⟨0, _⟩ => exact lhs_Z_0 _ _
    | ⟨1, _⟩ => exact (lhs_Z_1 _ _).trans hk)
  have er : dot_S8x32_S32x384_S8x384_1_0_0_1_n_n.rhsIdx (ix2 r b) ((contrEquiv1 dot_S8x32_S32x384_S8x384_1_0_0_1_n_n 32 rfl rfl).symm k) = ix2 k b := funext fun a => Fin.ext (by
    match a with
    | ⟨0, _⟩ => exact (rhs_Z_0 _ _).trans hk
    | ⟨1, _⟩ => exact rhs_Z_1 _ _)
  rw [el, er]

/-! ## The payload's tables, piece by piece, for rows of any length `d` -/

section Tables
variable {d : ℕ}

/-- The sums of squares of the 8 rows, spread along the 384 columns. -/
def rowSq (x : FVec Ideal ⟨2, ![8, d]⟩ .f32) (h : (⟨2, ![8, d]⟩ : Shape).Reduces [1] S8) : FVec Ideal S8x384 .f32 :=
  broadcastTo S8x384
    (shapeCast S8x1 (multiReduction (F := Ideal) .add [1] S8 (mulf x x) 0x00000000#32 h (.inl rfl) rfl) shapeCasts_S8_S8x1)
    broadcasts_S8x1_S8x384

/-- The sums of squares of the 384 rows, as one row spread down the 8 rows. -/
def colSq (y : FVec Ideal ⟨2, ![384, d]⟩ .f32) (h : (⟨2, ![384, d]⟩ : Shape).Reduces [1] S384) : FVec Ideal S8x384 .f32 :=
  broadcastTo S8x384
    (shapeCast S1x384
      (shapeCast S384x1 (multiReduction (F := Ideal) .add [1] S384 (mulf y y) 0x00000000#32 h (.inl rfl) rfl) shapeCasts_S384_S384x1)
      shapeCasts_S384x1_S1x384)
    broadcasts_S1x384_S8x384

/-- The clipped squared distances from the two tables of sums of squares and the table of cross terms. -/
def sqTab (p q m : FVec Ideal S8x384 .f32) : FVec Ideal S8x384 .f32 :=
  maximumf (subf (addf p q) (mulf (broadcast S8x384 (Scalar.ofBits .f32 0x40000000#32)) m))
    (broadcast S8x384 (Scalar.ofBits .f32 0x00000000#32))

/-- The root taken above the threshold, zero at or below it, of one extended real. -/
def root (s : E) : E :=
  Scalar.select (FloatOps.cmpf .ogt s (lit 0x2B8CBCCC#32))
    (FloatOps.sqrt (Scalar.select (FloatOps.cmpf .ogt s (lit 0x2B8CBCCC#32)) s (lit 0x3F800000#32)))
    (lit 0x00000000#32)

/-- The same over a table. -/
def rootTab (s : FVec Ideal S8x384 .f32) : FVec Ideal S8x384 .f32 :=
  select (cmpf .ogt s (broadcast S8x384 (Scalar.ofBits .f32 0x2B8CBCCC#32)))
    (sqrt (select (cmpf .ogt s (broadcast S8x384 (Scalar.ofBits .f32 0x2B8CBCCC#32))) s
      (broadcast S8x384 (Scalar.ofBits .f32 0x3F800000#32))))
    (broadcast S8x384 (Scalar.ofBits .f32 0x00000000#32))

/-- The table of differences: `t (r, b) - t (r, a)` at `(r, a, b)`. -/
def diffTab (t : FVec Ideal S8x384 .f32) : FVec Ideal S8x384x384 .f32 :=
  subf (broadcastTo S8x384x384 (shapeCast S8x1x384 t shapeCasts_S8x384_S8x1x384) broadcasts_S8x1x384_S8x384x384)
    (broadcastTo S8x384x384 (shapeCast S8x384x1 t shapeCasts_S8x384_S8x384x1) broadcasts_S8x384x1_S8x384x384)

/-- The table of sigmoids of the quotients by `c`. -/
def sigTab (t : FVec Ideal S8x384x384 .f32) (c : E) : FVec Ideal S8x384x384 .f32 :=
  shapeCast S8x384x384 (logistic (divf t (broadcast S8x384x384 c))) shapeCasts_S8x384x384_S8x384x384

theorem rowSq_apply (x : FVec Ideal ⟨2, ![8, d]⟩ .f32) (h : (⟨2, ![8, d]⟩ : Shape).Reduces [1] S8) (r : Fin 8) (b : Fin 384) :
    rowSq x h (ix2 r b) = ∑ k : Fin d, x (ix2 r k) * x (ix2 r k) := by
  unfold rowSq
  rw [broadcastTo_a1_ab_apply, shapeCast_a_a1_apply]
  exact sum_axis1_apply (mulf x x) h _ _ r

theorem colSq_apply (y : FVec Ideal ⟨2, ![384, d]⟩ .f32) (h : (⟨2, ![384, d]⟩ : Shape).Reduces [1] S384) (r : Fin 8) (b : Fin 384) :
    colSq y h (ix2 r b) = ∑ k : Fin d, y (ix2 b k) * y (ix2 b k) := by
  unfold colSq
  rw [broadcastTo_1b_ab_apply, shapeCast_a1_1a_apply, shapeCast_a_a1_apply]
  exact sum_axis1_apply (mulf y y) h _ _ b

theorem sqTab_apply (p q m : FVec Ideal S8x384 .f32) (j : S8x384.Idx) :
    sqTab p q m j
      = FloatOps.maximumf (FloatOps.subf (FloatOps.addf (p j) (q j)) (FloatOps.mulf (lit 0x40000000#32) (m j)))
          (lit 0x00000000#32) := rfl

theorem rootTab_apply (s : FVec Ideal S8x384 .f32) (j : S8x384.Idx) : rootTab s j = root (s j) := rfl

theorem dst_eq_root (u v : Fin d → E) : dst u v = root (sqd u v) := rfl

theorem diffTab_apply (t : FVec Ideal S8x384 .f32) (r : Fin 8) (a b : Fin 384) :
    diffTab t (ix3 r a b) = FloatOps.subf (t (ix2 r b)) (t (ix2 r a)) := by
  show FloatOps.subf
      (broadcastTo S8x384x384 (shapeCast S8x1x384 t shapeCasts_S8x384_S8x1x384) broadcasts_S8x1x384_S8x384x384 (ix3 r a b))
      (broadcastTo S8x384x384 (shapeCast S8x384x1 t shapeCasts_S8x384_S8x384x1) broadcasts_S8x384x1_S8x384x384 (ix3 r a b)) = _
  rw [broadcastTo_a1c_abc_apply, shapeCast_ab_a1b_apply, broadcastTo_ab1_abc_apply, shapeCast_ab_ab1_apply]

theorem sigTab_apply (t : FVec Ideal S8x384x384 .f32) (c : E) (j : S8x384x384.Idx) :
    sigTab t c j = FloatOps.logistic (FloatOps.divf (t j) c) := by
  unfold sigTab
  rw [shapeCast_self]
  rfl

/-- With `M` the table of the rows' inner products, the distance table reads, at `(r, b)`, the distance between row
    `r` of `x` and row `b` of `y`. -/
theorem dist_apply (x : FVec Ideal ⟨2, ![8, d]⟩ .f32) (y : FVec Ideal ⟨2, ![384, d]⟩ .f32) (M : FVec Ideal S8x384 .f32)
    (hM : ∀ (r : Fin 8) (b : Fin 384), M (ix2 r b) = ∑ k : Fin d, x (ix2 r k) * y (ix2 b k))
    (h1 : (⟨2, ![8, d]⟩ : Shape).Reduces [1] S8) (h2 : (⟨2, ![384, d]⟩ : Shape).Reduces [1] S384) (r : Fin 8) (b : Fin 384) :
    rootTab (sqTab (rowSq x h1) (colSq y h2) M) (ix2 r b) = dst (fun k => x (ix2 r k)) (fun k => y (ix2 b k)) := by
  rw [rootTab_apply, sqTab_apply, rowSq_apply, colSq_apply, hM, dst_eq_root]
  rfl

/-- So the table of sigmoids of the quotients of its differences reads, at `(r, a, b)`, the summand of the soft rank. -/
theorem sig_dist_apply (x : FVec Ideal ⟨2, ![8, d]⟩ .f32) (y : FVec Ideal ⟨2, ![384, d]⟩ .f32) (M : FVec Ideal S8x384 .f32)
    (hM : ∀ (r : Fin 8) (b : Fin 384), M (ix2 r b) = ∑ k : Fin d, x (ix2 r k) * y (ix2 b k))
    (h1 : (⟨2, ![8, d]⟩ : Shape).Reduces [1] S8) (h2 : (⟨2, ![384, d]⟩ : Shape).Reduces [1] S384) (c : E)
    (r : Fin 8) (a b : Fin 384) :
    sigTab (diffTab (rootTab (sqTab (rowSq x h1) (colSq y h2) M))) c (ix3 r a b)
      = FloatOps.logistic (FloatOps.divf
          (FloatOps.subf (dst (fun k => x (ix2 r k)) (fun k => y (ix2 b k))) (dst (fun k => x (ix2 r k)) (fun k => y (ix2 a k)))) c) := by
  rw [sigTab_apply, diffTab_apply, dist_apply x y M hM, dist_apply x y M hM]

end Tables

/-! ## The two cross-term tables -/

/-- X: the 8 rows against the transpose of the 384 rows. -/
def crossX (x : FVec Ideal S8x128 .f32) (y : FVec Ideal S384x128 .f32) : FVec Ideal S8x384 .f32 :=
  matmul (F := Ideal) dot_S8x128_S128x384_S8x384_1_0_0_1_n_n (some .fp32) x
    (transpose S128x384 [1, 0] y transposes_S384x128_p1_0_S128x384) (constant (F := Ideal) S8x384 .f32 0x00000000#32)

theorem crossX_apply (x : FVec Ideal S8x128 .f32) (y : FVec Ideal S384x128 .f32) (r : Fin 8) (b : Fin 384) :
    crossX x y (ix2 r b) = ∑ k : Fin 128, x (ix2 r k) * y (ix2 b k) := by
  unfold crossX
  rw [matmul_X_apply]
  refine Finset.sum_congr rfl fun k _ => ?_
  rw [transpose_ix2_apply]

/-- Z: the 8 rows against the transpose of the 384 rows. -/
def crossZ (x : FVec Ideal S8x32 .f32) (y : FVec Ideal S384x32 .f32) : FVec Ideal S8x384 .f32 :=
  matmul (F := Ideal) dot_S8x32_S32x384_S8x384_1_0_0_1_n_n (some .fp32) x
    (transpose S32x384 [1, 0] y transposes_S384x32_p1_0_S32x384) (constant (F := Ideal) S8x384 .f32 0x00000000#32)

theorem crossZ_apply (x : FVec Ideal S8x32 .f32) (y : FVec Ideal S384x32 .f32) (r : Fin 8) (b : Fin 384) :
    crossZ x y (ix2 r b) = ∑ k : Fin 32, x (ix2 r k) * y (ix2 b k) := by
  unfold crossZ
  rw [matmul_Z_apply]
  refine Finset.sum_congr rfl fun k _ => ?_
  rw [transpose_ix2_apply]

/-! ## The payloads are these tables -/

/-- The first payload: the sigmoids of the halved differences of the X distance table. -/
theorem k0_pay4_eq (x0 : FVec Ideal S8x128 .f32) (x1 : FVec Ideal S384x128 .f32) :
    k0_pay4 (F := Ideal) x0 x1
      = sigTab (diffTab (rootTab (sqTab (rowSq (d := 128) x0 reduces_S8x128_S8) (colSq (d := 128) x1 reduces_S384x128_S384) (crossX x0 x1))))
          (Scalar.ofBits .f32 0x3F000000#32) := rfl

/-- The Z payload: the differences of the Z distance table. -/
theorem k0_pay6_eq (x2 : FVec Ideal S8x32 .f32) (x3 : FVec Ideal S384x32 .f32) :
    k0_pay6 (F := Ideal) x2 x3
      = diffTab (rootTab (sqTab (rowSq (d := 32) x2 reduces_S8x32_S8) (colSq (d := 32) x3 reduces_S384x32_S384) (crossZ x2 x3))) := rfl

/-- The quotient-and-sigmoid payload. -/
theorem k0_pay1_eq (v : FVec Ideal S8x384x384 .f32) (c : E) : k0_pay1 (F := Ideal) v c = sigTab v c := rfl

/-- The X sigmoid table at `(r, a, b)`. -/
theorem k0_pay4_apply (x0 : FVec Ideal S8x128 .f32) (x1 : FVec Ideal S384x128 .f32) (r : Fin 8) (a b : Fin 384) :
    k0_pay4 (F := Ideal) x0 x1 (ix3 r a b)
      = FloatOps.logistic (FloatOps.divf
          (FloatOps.subf (dst (fun k => x0 (ix2 r k)) (fun k => x1 (ix2 b k))) (dst (fun k => x0 (ix2 r k)) (fun k => x1 (ix2 a k))))
          (lit 0x3F000000#32)) := by
  rw [k0_pay4_eq]
  exact sig_dist_apply (d := 128) x0 x1 (crossX x0 x1) (crossX_apply x0 x1) _ _ _ r a b

/-- The Z sigmoid table at `(r, a, b)`. -/
theorem k0_pay1_pay6_apply (x2 : FVec Ideal S8x32 .f32) (x3 : FVec Ideal S384x32 .f32) (r : Fin 8) (a b : Fin 384) :
    k0_pay1 (F := Ideal) (k0_pay6 (F := Ideal) x2 x3) (Scalar.ofBits .f32 0x3F000000#32) (ix3 r a b)
      = FloatOps.logistic (FloatOps.divf
          (FloatOps.subf (dst (fun k => x2 (ix2 r k)) (fun k => x3 (ix2 b k))) (dst (fun k => x2 (ix2 r k)) (fun k => x3 (ix2 a k))))
          (lit 0x3F000000#32)) := by
  rw [k0_pay1_eq, k0_pay6_eq]
  exact sig_dist_apply (d := 32) x2 x3 (crossZ x2 x3) (crossZ_apply x2 x3) _ _ _ r a b

/-! ## The rank, the loss and the tile's sum -/

/-- The relu of the soft rank less 5, from a table of sigmoids: at `(r, a)`. -/
theorem k0_pay5_apply (v : FVec Ideal S8x384x384 .f32) (r : Fin 8) (a : Fin 384) :
    k0_pay5 (F := Ideal) v (ix2 r a)
      = FloatOps.maximumf
          (FloatOps.subf (FloatOps.addf (lit 0x3F800000#32) (∑ b : Fin 384, v (ix3 r a b))) (lit 0x40A00000#32))
          (lit 0x00000000#32) :=
  congrArg
    (fun s : E => FloatOps.maximumf (FloatOps.subf (FloatOps.addf (lit 0x3F800000#32) s) (lit 0x40A00000#32)) (lit 0x00000000#32))
    (sum_axis2_apply v reduces_S8x384x384_S8x384 _ _ r a)

/-- The second factor of a row's loss from the sum `s` of the Z sigmoids: one minus the fifth of `6 - (1 + s)`
    clipped into `[0, 1]`. -/
def zfac (s : E) : E :=
  FloatOps.subf (lit 0x3F800000#32)
    (FloatOps.minimumf (lit 0x3F800000#32)
      (FloatOps.maximumf (lit 0x00000000#32)
        (FloatOps.divf (FloatOps.subf (lit 0x40C00000#32) (FloatOps.addf (lit 0x3F800000#32) s)) (lit 0x40A00000#32))))

/-- The table of losses from the table of first factors and the table of sums of the Z sigmoids. -/
def lossTab (f s : FVec Ideal S8x384 .f32) : FVec Ideal S8x384 .f32 := fun i => FloatOps.mulf (f i) (zfac (s i))

/-- The last payload: the accumulator plus the sum, over the 8 rows and the 384 points, of the first factor times the
    second factor of the sum of the Z sigmoids. -/
theorem k0_pay2_apply (f : FVec Ideal S8x384 .f32) (v : FVec Ideal S8x384x384 .f32) (acc : FVec Ideal S1x1 .f32) (j : S1x1.Idx) :
    k0_pay2 (F := Ideal) f v acc j
      = acc j + ∑ r : Fin 8, ∑ a : Fin 384, FloatOps.mulf (f (ix2 r a)) (zfac (∑ b : Fin 384, v (ix3 r a b))) := by
  obtain ⟨p, q, rfl⟩ : ∃ (p : Fin 1) (q : Fin 1), j = ix2 p q := ⟨j 0, j 1, eq_ix2 j⟩
  have e : k0_pay2 (F := Ideal) f v acc (ix2 p q)
      = shapeCast S1x1 acc shapeCasts_S1x1_S1x1 (ix2 p q)
        + shapeCast S1x1
            (multiReduction (F := Ideal) .add [0] S1
              (shapeCast S8x1
                (multiReduction (F := Ideal) .add [1] S8
                  (lossTab f (multiReduction (F := Ideal) .add [2] S8x384 v 0x00000000#32 reduces_S8x384x384_S8x384 (.inl rfl) rfl))
                  0x00000000#32 reduces_S8x384_S8 (.inl rfl) rfl)
                shapeCasts_S8_S8x1)
              0x00000000#32 reduces_S8x1_S1 (.inl rfl) rfl)
            shapeCasts_S1_S1x1 (ix2 p q) := rfl
  rw [e, shapeCast_self, shapeCast_a_1a_apply]
  refine congrArg (acc (ix2 p q) + ·) ?_
  refine (sum_axis0_apply _ reduces_S8x1_S1 _ _ q).trans ?_
  refine Finset.sum_congr rfl fun r _ => ?_
  rw [shapeCast_a_a1_apply]
  refine (sum_axis1_apply _ reduces_S8x384_S8 _ _ r).trans ?_
  refine Finset.sum_congr rfl fun a _ => ?_
  exact congrArg (fun s : E => FloatOps.mulf (f (ix2 r a)) (zfac s)) (sum_axis2_apply v reduces_S8x384x384_S8x384 _ _ r a)

/-- THE TILE'S VALUE: the body's arithmetic on a row tile adds to the accumulator the losses of the tile's 8 rows at all
    384 points. -/
theorem tile_value (x0 : Vec Ideal S8x128 .f32) (x1 : Vec Ideal S384x128 .f32) (x2 : Vec Ideal S8x32 .f32) (x3 : Vec Ideal S384x32 .f32)
    (acc : Vec Ideal S1x1 .f32) (j : S1x1.Idx) :
    k0_pay2 (F := Ideal) (k0_pay5 (k0_pay4 x0 x1)) (k0_pay1 (k0_pay6 x2 x3) (Scalar.ofBits .f32 0x3F000000#32)) acc j
      = acc j + ∑ r : Fin 8, ∑ a : Fin 384,
          lossRow (fun k => x0 (ix2 r k)) (fun i k => x1 (ix2 i k)) (fun k => x2 (ix2 r k)) (fun i k => x3 (ix2 i k)) a := by
  refine (k0_pay2_apply _ _ _ j).trans ?_
  refine congrArg (acc j + ·) ?_
  refine Finset.sum_congr rfl fun r _ => Finset.sum_congr rfl fun a _ => ?_
  rw [k0_pay5_apply, Finset.sum_congr rfl fun b _ => k0_pay4_apply x0 x1 r a b,
    Finset.sum_congr rfl fun b _ => k0_pay1_pay6_apply x2 x3 r a b]
  rfl

/-- The value the first grid step stores before accumulating: zero. -/
theorem zero_value (j : S1x1.Idx) : k0_pay3 (F := Ideal) j = 0 := Ideal.ofBits_zero_f32

end Cert.KernelIdeal.TileValue

end
-- ==== Proof.KI.Result.lean ====
/-
  The idealized kernel's result, as a value: the accumulator after the last tile is the sum of the 48 tile sums,
  which is the sum over all 384 rows and all 384 points of the row loss; the three host operations after the region
  reshape the one-element array to a scalar and scale it.
-/
import proofs.«136826_j5634997093005_1_alg».proof.Proof.KI.Launch
import proofs.«136826_j5634997093005_1_alg».proof.Proof.KI.AccValue
import proofs.«136826_j5634997093005_1_alg».proof.Proof.KI.Blocks
import proofs.«136826_j5634997093005_1_alg».proof.Proof.KI.TileValue
import Idealize.ShloMosaic.Lib.StableHlo.Run
import Idealize.ShloMosaic.Lib.ValueLayout

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (m : (ℓ : Loc nD τ sig) → Buf (Elt Ideal) ℓ)

/-- The accumulator's array after the run holds the whole sum. -/
theorem acc_total (c : Dev nD) (j : S1x1.Idx) :
    (dats m 0 c).arrAt 4 cfg0.N j = total (Xrows m c) (Zrows m c) := by
  rw [final_acc]
  exact acc_sum m c tileStep (k0_pay3 (F := Ideal)) Cert.KernelIdeal.TileValue.zero_value
    (fun x0 x1 x2 x3 acc j => Cert.KernelIdeal.TileValue.tile_value x0 x1 x2 x3 acc j)
    (accAt m c) (accAt_zero m c) (accAt_succ m c) j

/-- The program's result: the scale times the whole sum. -/
theorem result_value (c : Dev nD) (i : S_.Idx) :
    resultAt m c i = FloatOps.mulf (lit 0x35B9EAF0#32) (total (Xrows m c) (Zrows m c)) := by
  have hW0 : Wexit m c (Proc.devRef .tc main_v0) = (dats m 0 c).arrAt 4 cfg0.N := Function.update_self _ _ _
  unfold resultAt
  after_results
  rw [hW0]
  refine congrArg (FloatOps.mulf (lit 0x35B9EAF0#32)) ?_
  exact acc_total m c _

end Cert.KernelIdeal.Tile

end
-- ==== Proof.RefLoss.lean ====
/-
  The reference program's result, read index by index.

  For X : [384,128] and Z : [384,32] the reference forms the two distance tables (row sums of squares, the products
  of rows, the clip at zero, the root above the threshold), the soft rank of each point among each row's distances,
  the product relu(rank_X − 5) · (1 − clip((6 − rank_Z) / 5, 0, 1)) at each (row, point), its sum over both axes, and
  that sum times a constant.  Each stage read at the index (i, a) is the specification's term for row i and point a;
  the sum over the index pairs is the double sum over rows and points.
-/
import proofs.«136826_j5634997093005_1_alg».proof.Proof.Spec
import proofs.«136826_j5634997093005_1_alg».proof.Proof.Gen.ReferenceIdeal.Read
import Idealize.ShloMosaic.Lib.ValueIdx
import Idealize.ShloMosaic.PureOps.Ideal
import Idealize.ShloMosaic.PureOps.Ideal.Laws

noncomputable section

namespace Cert.RefLoss

open Cert.ReferenceIdeal Cert.ReferenceIdeal.Read Idealize.ShloMosaic Idealize.ShloMosaic.ValueIdx Cert.Spec

/-- the rows of X -/
abbrev rowsX (x0 : (⟨S384x128, .f32⟩ : BufTy).Contents (Elt Ideal)) : Fin 384 → Fin 128 → E := fun i k => x0 (ix2 i k)
/-- the rows of Z -/
abbrev rowsZ (x1 : (⟨S384x32, .f32⟩ : BufTy).Contents (Elt Ideal)) : Fin 384 → Fin 32 → E := fun i k => x1 (ix2 i k)

/-! ### The word of one -/

/-- The binary word 0x3F800000 denotes the extended real one. -/
theorem ofBits_one_f32 : Ideal.ofBits .f32 0x3F800000#32 = 1 := by
  simp [Ideal.ofBits, Ideal.ieee, -EReal.coe_mul]; norm_num

/-! ### The composed index maps are the coordinate pairs -/

theorem ixX_row (i j : Fin 384) (k : Fin 128) : idx_main_v1 (idx_main_v2 (idx_main_v6 (ix2 i j))) k = ix2 i k :=
  funext fun a => Fin.ext (by match a with | ⟨0, _⟩ => rfl | ⟨1, _⟩ => rfl)
theorem ixX_col (i j : Fin 384) (k : Fin 128) : idx_main_v4 (idx_main_v5 (idx_main_v7 (ix2 i j))) k = ix2 j k :=
  funext fun a => Fin.ext (by match a with | ⟨0, _⟩ => rfl | ⟨1, _⟩ => rfl)
theorem ixX_lhs (i j : Fin 384) (k : Fin 128) : lidx_main_v10 (ix2 i j) k = ix2 i k :=
  funext fun a => Fin.ext (by match a with | ⟨0, _⟩ => rfl | ⟨1, _⟩ => rfl)
theorem ixX_rhs (i j : Fin 384) (k : Fin 128) : idx_main_v9 (ridx_main_v10 (ix2 i j) k) = ix2 j k :=
  funext fun a => Fin.ext (by match a with | ⟨0, _⟩ => rfl | ⟨1, _⟩ => rfl)
theorem ixZ_row (i j : Fin 384) (k : Fin 32) : idx_main_v22 (idx_main_v23 (idx_main_v27 (ix2 i j))) k = ix2 i k :=
  funext fun a => Fin.ext (by match a with | ⟨0, _⟩ => rfl | ⟨1, _⟩ => rfl)
theorem ixZ_col (i j : Fin 384) (k : Fin 32) : idx_main_v25 (idx_main_v26 (idx_main_v28 (ix2 i j))) k = ix2 j k :=
  funext fun a => Fin.ext (by match a with | ⟨0, _⟩ => rfl | ⟨1, _⟩ => rfl)
theorem ixZ_lhs (i j : Fin 384) (k : Fin 32) : lidx_main_v31 (ix2 i j) k = ix2 i k :=
  funext fun a => Fin.ext (by match a with | ⟨0, _⟩ => rfl | ⟨1, _⟩ => rfl)
theorem ixZ_rhs (i j : Fin 384) (k : Fin 32) : idx_main_v30 (ridx_main_v31 (ix2 i j) k) = ix2 j k :=
  funext fun a => Fin.ext (by match a with | ⟨0, _⟩ => rfl | ⟨1, _⟩ => rfl)
theorem ixX_other (i a k : Fin 384) : idx_main_v42 (idx_main_v44 (idx_main_v55 (ix2 i a) k)) = ix2 i k :=
  funext fun a => Fin.ext (by match a with | ⟨0, _⟩ => rfl | ⟨1, _⟩ => rfl)
theorem ixX_self (i a k : Fin 384) : idx_main_v43 (idx_main_v45 (idx_main_v55 (ix2 i a) k)) = ix2 i a :=
  funext fun a => Fin.ext (by match a with | ⟨0, _⟩ => rfl | ⟨1, _⟩ => rfl)
theorem ixZ_other (i a k : Fin 384) : idx_main_v61 (idx_main_v63 (idx_main_v74 (ix2 i a) k)) = ix2 i k :=
  funext fun a => Fin.ext (by match a with | ⟨0, _⟩ => rfl | ⟨1, _⟩ => rfl)
theorem ixZ_self (i a k : Fin 384) : idx_main_v62 (idx_main_v64 (idx_main_v74 (ix2 i a) k)) = ix2 i a :=
  funext fun a => Fin.ext (by match a with | ⟨0, _⟩ => rfl | ⟨1, _⟩ => rfl)

/-! ### The squared distance and the distance -/

theorem sqdX (x0 : (⟨S384x128, .f32⟩ : BufTy).Contents (Elt Ideal)) (i j : Fin 384) :
    val_main_v15 (F := Ideal) x0 (ix2 i j) = sqd (rowsX x0 i) (rowsX x0 j) := by
  simp only [val_main_v15_apply, val_main_v13_apply, val_main_v8_apply, val_main_v6_apply, val_main_v2_apply, val_main_v1_apply,
    val_main_v7_apply, val_main_v5_apply, val_main_v4_apply, val_main_v12_apply, val_main_v11_apply, val_main_v10_apply,
    val_main_v9_apply, val_main_v14_apply, val_main_v0_apply, val_main_v3_apply, val_main_cst_apply, val_main_cst_0_apply,
    val_main_cst_1_apply, val_main_cst_2_apply, ixX_row, ixX_col, ixX_lhs, ixX_rhs]
  unfold sqd
  simp only [lit, Ideal.ofBits_def, Ideal.ofBits_zero_f32, zero_add]

theorem sqdZ (x1 : (⟨S384x32, .f32⟩ : BufTy).Contents (Elt Ideal)) (i j : Fin 384) :
    val_main_v36 (F := Ideal) x1 (ix2 i j) = sqd (rowsZ x1 i) (rowsZ x1 j) := by
  simp only [val_main_v36_apply, val_main_v34_apply, val_main_v29_apply, val_main_v27_apply, val_main_v23_apply, val_main_v22_apply,
    val_main_v28_apply, val_main_v26_apply, val_main_v25_apply, val_main_v33_apply, val_main_v32_apply, val_main_v31_apply,
    val_main_v30_apply, val_main_v35_apply, val_main_v21_apply, val_main_v24_apply, val_main_cst_6_apply, val_main_cst_7_apply,
    val_main_cst_8_apply, val_main_cst_9_apply, ixZ_row, ixZ_col, ixZ_lhs, ixZ_rhs]
  unfold sqd
  simp only [lit, Ideal.ofBits_def, Ideal.ofBits_zero_f32, zero_add]

theorem dstX (x0 : (⟨S384x128, .f32⟩ : BufTy).Contents (Elt Ideal)) (i j : Fin 384) :
    val_main_v20 (F := Ideal) x0 (ix2 i j) = dst (rowsX x0 i) (rowsX x0 j) := by
  simp only [val_main_v20_apply, val_main_v19_apply, val_main_v18_apply, val_main_v17_apply, val_main_v16_apply,
    val_main_call0_v1_apply, val_main_call0_v0_apply, val_main_call1_v1_apply, val_main_call1_v0_apply,
    val_main_cst_3_apply, val_main_cst_4_apply, val_main_cst_5_apply, sqdX]
  rfl

theorem dstZ (x1 : (⟨S384x32, .f32⟩ : BufTy).Contents (Elt Ideal)) (i j : Fin 384) :
    val_main_v41 (F := Ideal) x1 (ix2 i j) = dst (rowsZ x1 i) (rowsZ x1 j) := by
  simp only [val_main_v41_apply, val_main_v40_apply, val_main_v39_apply, val_main_v38_apply, val_main_v37_apply,
    val_main_call2_v1_apply, val_main_call2_v0_apply, val_main_call3_v1_apply, val_main_call3_v0_apply,
    val_main_cst_10_apply, val_main_cst_11_apply, val_main_cst_12_apply, sqdZ]
  rfl

/-! ### The soft rank -/

theorem rankX (x0 : (⟨S384x128, .f32⟩ : BufTy).Contents (Elt Ideal)) (i a : Fin 384) :
    val_main_v57 (F := Ideal) x0 (ix2 i a) = rank (rowsX x0 i) (rowsX x0) a := by
  simp only [val_main_v57_apply, val_main_v56_apply, val_main_v55_apply, val_main_v54_apply, val_main_v53_apply,
    val_main_v52_apply, val_main_v51_apply, val_main_v50_apply, val_main_v49_apply, val_main_v48_apply, val_main_v47_apply,
    val_main_v46_apply, val_main_v45_apply, val_main_v44_apply, val_main_v43_apply, val_main_v42_apply,
    val_main_cst_13_apply, val_main_cst_14_apply, val_main_cst_15_apply, val_main_cst_16_apply, val_main_cst_17_apply,
    ixX_other, ixX_self, dstX]
  unfold rank
  simp only [lit, Ideal.ofBits_def, Ideal.ofBits_zero_f32, zero_add, ofBits_one_f32, Ideal.logistic_def, Ideal.logistic,
    Ideal.hostDivf_def, Ideal.divf_def, Ideal.hostUnary_exp_def, Ideal.hostNegf_def, Ideal.negf_def, Ideal.addf_def]

theorem rankZ (x1 : (⟨S384x32, .f32⟩ : BufTy).Contents (Elt Ideal)) (i a : Fin 384) :
    val_main_v76 (F := Ideal) x1 (ix2 i a) = rank (rowsZ x1 i) (rowsZ x1) a := by
  simp only [val_main_v76_apply, val_main_v75_apply, val_main_v74_apply, val_main_v73_apply, val_main_v72_apply,
    val_main_v71_apply, val_main_v70_apply, val_main_v69_apply, val_main_v68_apply, val_main_v67_apply, val_main_v66_apply,
    val_main_v65_apply, val_main_v64_apply, val_main_v63_apply, val_main_v62_apply, val_main_v61_apply,
    val_main_cst_19_apply, val_main_cst_20_apply, val_main_cst_21_apply, val_main_cst_22_apply, val_main_cst_23_apply,
    ixZ_other, ixZ_self, dstZ]
  unfold rank
  simp only [lit, Ideal.ofBits_def, Ideal.ofBits_zero_f32, zero_add, ofBits_one_f32, Ideal.logistic_def, Ideal.logistic,
    Ideal.hostDivf_def, Ideal.divf_def, Ideal.hostUnary_exp_def, Ideal.hostNegf_def, Ideal.negf_def, Ideal.addf_def]

/-! ### One row's loss, and the whole sum -/

theorem ref_loss (x0 : (⟨S384x128, .f32⟩ : BufTy).Contents (Elt Ideal)) (x1 : (⟨S384x32, .f32⟩ : BufTy).Contents (Elt Ideal)) (i a : Fin 384) :
    val_main_v84 (F := Ideal) x0 x1 (ix2 i a) = lossRow (rowsX x0 i) (rowsX x0) (rowsZ x1 i) (rowsZ x1) a := by
  simp only [val_main_v84_apply, val_main_v60_apply, val_main_v59_apply, val_main_v58_apply, val_main_call4_v0_apply,
    val_main_call4_cst_apply, val_main_v83_apply, val_main_v82_apply, val_main_v81_apply, val_main_call5_v4_apply,
    val_main_call5_v3_apply, val_main_call5_v2_apply, val_main_call5_v1_apply, val_main_call5_v0_apply, val_main_v80_apply,
    val_main_v79_apply, val_main_v78_apply, val_main_v77_apply, val_main_cst_18_apply, val_main_cst_24_apply,
    val_main_cst_25_apply, val_main_cst_26_apply, val_main_cst_27_apply, val_main_cst_28_apply, rankX, rankZ]
  rfl

theorem ref_result (x0 : (⟨S384x128, .f32⟩ : BufTy).Contents (Elt Ideal)) (x1 : (⟨S384x32, .f32⟩ : BufTy).Contents (Elt Ideal)) (i : S_.Idx) :
    val_main_v86 (F := Ideal) x0 x1 i = FloatOps.mulf (lit 0x35B9EAF0#32) (total (rowsX x0) (rowsZ x1)) := by
  rw [val_main_v86_apply, val_main_v85_apply, val_main_cst_29_apply, val_main_cst_30_apply]
  refine congrArg (FloatOps.mulf (lit 0x35B9EAF0#32)) ?_
  rw [Ideal.ofBits_def, Ideal.ofBits_zero_f32, zero_add, sum_idx2]
  unfold total
  exact Finset.sum_congr rfl fun p _ => Finset.sum_congr rfl fun q _ => ref_loss x0 x1 p q

end Cert.RefLoss

end
-- ==== Proof.lean ====
/-
  The certificate of the row-tiled trust loss.

  The reference computes, on the host, the loss matrix `L[i, a]` of all 384 rows against all 384 points — Euclidean
  distances of X and of Z, soft ranks by sums of sigmoids, a hinge on the X-rank times one minus a clipped ramp of the
  Z-rank — sums it over both axes and scales it.  The kernel walks 48 tiles of 8 rows: at each tile it computes the
  same 8 × 384 losses from the tile's rows and the whole of X and Z, sums them, and adds the tile's sum to a
  one-element accumulator it reset at the first tile; the program then scales the accumulator.

  At the ideal instance both are the same expression row by row: the kernel's sigmoid is by definition the
  reference's `1 / (1 + e⁻ˣ)`, its matrix product into a zero accumulator is the reference's contraction, every
  literal is the same word on both sides.  What differs is the order of one sum: 48 tile sums added in turn against
  one sum over 384 × 384 entries, equal on the extended reals because addition there is commutative and associative.
  No finiteness is used.

  The frames: the kernel region's run is proved from the body's run at a tile (once for the first tile, once for a
  later one) through the pipeline's launch theorem, X and Z each held half and half by their two windows; the
  reference's run is its straight line of host operations.  The ideal pass rewrote nothing, so the idealization
  claim is trivial.
-/
import proofs.«136826_j5634997093005_1_alg».proof.Defs
import proofs.«136826_j5634997093005_1_alg».proof.Proof.Gen.Kernel
import proofs.«136826_j5634997093005_1_alg».proof.Proof.Gen.KernelIdeal
import proofs.«136826_j5634997093005_1_alg».proof.Proof.Gen.ReferenceIdeal
import proofs.«136826_j5634997093005_1_alg».proof.Proof.Gen.Pre_finite_inputs
import proofs.«136826_j5634997093005_1_alg».proof.Proof.Gen.ReferenceIdeal.Run
import proofs.«136826_j5634997093005_1_alg».proof.Proof.Gen.ReferenceIdeal.Read
import proofs.«136826_j5634997093005_1_alg».proof.Proof.K.Launch
import proofs.«136826_j5634997093005_1_alg».proof.Proof.KI.Launch
import proofs.«136826_j5634997093005_1_alg».proof.Proof.KI.Result
import proofs.«136826_j5634997093005_1_alg».proof.Proof.RefLoss
import Idealize.ShloMosaic.Adequacy
import Idealize.ShloMosaic.Init

noncomputable section

namespace Cert.Proof

open Idealize.ShloMosaic Idealize.SL.Sem

/-- The word-level kernel program runs to its end and leaves X and Z as they were. -/
theorem frame_k : Cert.frame_Kernel := fun m ρ _ =>
  (θ_run Cert.Kernel.defs _ _).mono (fun _ h c => (h c).2) (Cert.Kernel.Tile.run_main (F := Bits) m ρ)

/-- So does its idealization. -/
theorem frame_ki : Cert.frame_KernelIdeal := fun m ρ _ =>
  (θ_run Cert.KernelIdeal.defs _ _).mono (fun _ h c => (h c).2) (Cert.KernelIdeal.Tile.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on X and Z both idealized programs end with the scale times the sum of the row losses. -/
theorem algebraic : Cert.algebraic_KernelIdeal_ReferenceIdeal := by
  intro m ρ m' ρ' _ hagree
  refine ⟨fun c => Cert.KernelIdeal.Tile.resultAt m c, Cert.KernelIdeal.Tile.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2]
  funext i
  exact (Cert.RefLoss.ref_result _ _ i).trans (Cert.KernelIdeal.Tile.result_value m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
